-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x64x100 : Shape := ⟨3, ![4096, 64, 100]⟩
abbrev S64x512 : Shape := ⟨2, ![64, 512]⟩
abbrev S64 : Shape := ⟨1, ![64]⟩
abbrev S2080x512 : Shape := ⟨2, ![2080, 512]⟩
abbrev S2080 : Shape := ⟨1, ![2080]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x64x100 : S_.BroadcastsInDim S4096x64x100 (![] : Fin 0 → Fin S4096x64x100.rank)
  reducesTo_S4096x64x100_S_d0_1_2 : S4096x64x100.ReducesTo [0, 1, 2] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S2080x512 : S_.BroadcastsInDim S2080x512 (![] : Fin 0 → Fin S2080x512.rank)
  reducesTo_S2080x512_S_d0_1 : S2080x512.ReducesTo [0, 1] S_
  bcast_S_S2080 : S_.BroadcastsInDim S2080 (![] : Fin 0 → Fin S2080.rank)
  reducesTo_S2080_S_d0 : S2080.ReducesTo [0] S_

variable [Facts]

def fn_part1 {F : FTy → Type} [FloatOps F] (main_arg4 : FVec F S2080x512 .f32) (main_arg5 : FVec F S2080 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2080x512 .f32 := Host.absf main_arg4
  let main_cst_6 : FVec F S_ .f32 := constant S_ .f32 0x7F800000#32
  let main_v20 : FVec F S2080x512 .f32 := broadcastInDim S2080x512 ![] bcast_S_S2080x512 main_cst_6
  let main_v21 : IVec S2080x512 1 := cmpf .olt main_v19 main_v20
  let main_c_7 : IVec S_ 1 := constantI S_ 1 1#1
  let main_v22 : IVec S_ 1 := (fun x v => Host.reduce IntOp.andi x v reducesTo_S2080x512_S_d0_1 h_S_) main_v21 main_c_7
  let main_v23 : IVec S_ 1 := andi main_v18 main_v22
  let main_v24 : FVec F S2080 .f32 := Host.absf main_arg5
  let main_cst_8 : FVec F S_ .f32 := constant S_ .f32 0x7F800000#32
  let main_v25 : FVec F S2080 .f32 := broadcastInDim S2080 ![] bcast_S_S2080 main_cst_8
  let main_v26 : IVec S2080 1 := cmpf .olt main_v24 main_v25
  let main_c_9 : IVec S_ 1 := constantI S_ 1 1#1
  let main_v27 : IVec S_ 1 := (fun x v => Host.reduce IntOp.andi x v reducesTo_S2080_S_d0 h_S_) main_v26 main_c_9
  let main_v28 : IVec S_ 1 := andi main_v23 main_v27
  main_v28

def fn {F : FTy → Type} [FloatOps F] (main_arg0 : FVec F S4096x512 .f32) (main_arg1 : FVec F S4096x64x100 .f32) (main_arg2 : FVec F S64x512 .f32) (main_arg3 : FVec F S64 .f32) (main_arg4 : FVec F S2080x512 .f32) (main_arg5 : FVec F S2080 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x64x100 .f32 := Host.absf main_arg1
  let main_cst_0 : FVec F S_ .f32 := constant S_ .f32 0x7F800000#32
  let main_v5 : FVec F S4096x64x100 .f32 := broadcastInDim S4096x64x100 ![] bcast_S_S4096x64x100 main_cst_0
  let main_v6 : IVec S4096x64x100 1 := cmpf .olt main_v4 main_v5
  let main_c_1 : IVec S_ 1 := constantI S_ 1 1#1
  let main_v7 : IVec S_ 1 := (fun x v => Host.reduce IntOp.andi x v reducesTo_S4096x64x100_S_d0_1_2 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S4096x512 : Shape := ⟨2, ![4096, 512]⟩
abbrev S4096x64x100 : Shape := ⟨3, ![4096, 64, 100]⟩
abbrev S64x512 : Shape := ⟨2, ![64, 512]⟩
abbrev S64 : Shape := ⟨1, ![64]⟩
abbrev S2080x512 : Shape := ⟨2, ![2080, 512]⟩
abbrev S2080 : Shape := ⟨1, ![2080]⟩
abbrev S2144x512 : Shape := ⟨2, ![2144, 512]⟩
abbrev S2144 : Shape := ⟨1, ![2144]⟩
abbrev S1x2144 : Shape := ⟨2, ![1, 2144]⟩
abbrev S4096x2144 : Shape := ⟨2, ![4096, 2144]⟩
abbrev S512x512 : Shape := ⟨2, ![512, 512]⟩
abbrev S512x2144 : Shape := ⟨2, ![512, 2144]⟩
abbrev S4096x64 : Shape := ⟨2, ![4096, 64]⟩
abbrev S4096x2080 : Shape := ⟨2, ![4096, 2080]⟩
abbrev S_ : Shape := ⟨0, ![]⟩
abbrev S4096x64x64 : Shape := ⟨3, ![4096, 64, 64]⟩
abbrev S2080x1 : Shape := ⟨2, ![2080, 1]⟩
abbrev S2080x2 : Shape := ⟨2, ![2080, 2]⟩
abbrev S64x1 : Shape := ⟨2, ![64, 1]⟩
abbrev S64x2 : Shape := ⟨2, ![64, 2]⟩
abbrev S128x64 : Shape := ⟨2, ![128, 64]⟩
abbrev S128x64x64 : Shape := ⟨3, ![128, 64, 64]⟩
abbrev S128x64x100 : Shape := ⟨3, ![128, 64, 100]⟩
abbrev S128x64x1 : Shape := ⟨3, ![128, 64, 1]⟩

abbrev nBuf : Space → Nat
  | .hbm => 71
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x64x100, .f32⟩
  | .hbm, ⟨2, _⟩ => ⟨S64x512, .f32⟩
  | .hbm, ⟨3, _⟩ => ⟨S64, .f32⟩
  | .hbm, ⟨4, _⟩ => ⟨S2080x512, .f32⟩
  | .hbm, ⟨5, _⟩ => ⟨S2080, .f32⟩
  | .hbm, ⟨6, _⟩ => ⟨S2080, .i32⟩
  | .hbm, ⟨7, _⟩ => ⟨S2080, .i1⟩
  | .hbm, ⟨8, _⟩ => ⟨S2080, .i32⟩
  | .hbm, ⟨9, _⟩ => ⟨S2080, .i1⟩
  | .hbm, ⟨10, _⟩ => ⟨S64, .i32⟩
  | .hbm, ⟨11, _⟩ => ⟨S64, .i1⟩
  | .hbm, ⟨12, _⟩ => ⟨S64, .i32⟩
  | .hbm, ⟨13, _⟩ => ⟨S64, .i1⟩
  | .hbm, ⟨14, _⟩ => ⟨S64, .i1⟩
  | .hbm, ⟨15, _⟩ => ⟨S2144x512, .f32⟩
  | .hbm, ⟨16, _⟩ => ⟨S2144, .f32⟩
  | .hbm, ⟨17, _⟩ => ⟨S1x2144, .f32⟩
  | .hbm, ⟨18, _⟩ => ⟨S4096x2144, .f32⟩
  | .hbm, ⟨19, _⟩ => ⟨S4096x64, .f32⟩
  | .hbm, ⟨20, _⟩ => ⟨S4096x2080, .f32⟩
  | .hbm, ⟨21, _⟩ => ⟨S_, .f32⟩
  | .hbm, ⟨22, _⟩ => ⟨S4096x64x64, .f32⟩
  | .hbm, ⟨23, _⟩ => ⟨S_, .i32⟩
  | .hbm, ⟨24, _⟩ => ⟨S2080, .i32⟩
  | .hbm, ⟨25, _⟩ => ⟨S2080, .i32⟩
  | .hbm, ⟨26, _⟩ => ⟨S2080, .i32⟩
  | .hbm, ⟨27, _⟩ => ⟨S_, .i32⟩
  | .hbm, ⟨28, _⟩ => ⟨S2080, .i32⟩
  | .hbm, ⟨29, _⟩ => ⟨S2080, .i32⟩
  | .hbm, ⟨30, _⟩ => ⟨S2080, .i32⟩
  | .hbm, ⟨31, _⟩ => ⟨S2080x1, .i32⟩
  | .hbm, ⟨32, _⟩ => ⟨S2080x1, .i32⟩
  | .hbm, ⟨33, _⟩ => ⟨S2080x2, .i32⟩
  | .hbm, ⟨34, _⟩ => ⟨S4096x64x64, .f32⟩
  | .hbm, ⟨35, _⟩ => ⟨S_, .i32⟩
  | .hbm, ⟨36, _⟩ => ⟨S64, .i32⟩
  | .hbm, ⟨37, _⟩ => ⟨S64, .i32⟩
  | .hbm, ⟨38, _⟩ => ⟨S64, .i32⟩
  | .hbm, ⟨39, _⟩ => ⟨S64x1, .i32⟩
  | .hbm, ⟨40, _⟩ => ⟨S4096x64, .f32⟩
  | .hbm, ⟨41, _⟩ => ⟨S_, .f32⟩
  | .hbm, ⟨42, _⟩ => ⟨S4096x64, .f32⟩
  | .hbm, ⟨43, _⟩ => ⟨S4096x64, .f32⟩
  | .hbm, ⟨44, _⟩ => ⟨S4096x64, .f32⟩
  | .hbm, ⟨45, _⟩ => ⟨S4096x64, .f32⟩
  | .hbm, ⟨46, _⟩ => ⟨S4096x64, .i1⟩
  | .hbm, ⟨47, _⟩ => ⟨S4096x64, .f32⟩
  | .hbm, ⟨48, _⟩ => ⟨S4096x64, .f32⟩
  | .hbm, ⟨49, _⟩ => ⟨S4096x64, .f32⟩
  | .hbm, ⟨50, _⟩ => ⟨S4096x64, .f32⟩
  | .hbm, ⟨51, _⟩ => ⟨S4096x64, .f32⟩
  | .hbm, ⟨52, _⟩ => ⟨S4096x64, .f32⟩
  | .hbm, ⟨53, _⟩ => ⟨S4096x64, .f32⟩
  | .hbm, ⟨54, _⟩ => ⟨S4096x64, .f32⟩
  | .hbm, ⟨55, _⟩ => ⟨S_, .f32⟩
  | .hbm, ⟨56, _⟩ => ⟨S4096x64, .f32⟩
  | .hbm, ⟨57, _⟩ => ⟨S4096x64, .f32⟩
  | .hbm, ⟨58, _⟩ => ⟨S_, .i32⟩
  | .hbm, ⟨59, _⟩ => ⟨S64, .i32⟩
  | .hbm, ⟨60, _⟩ => ⟨S64, .i32⟩
  | .hbm, ⟨61, _⟩ => ⟨S64, .i32⟩
  | .hbm, ⟨62, _⟩ => ⟨S_, .i32⟩
  | .hbm, ⟨63, _⟩ => ⟨S64, .i32⟩
  | .hbm, ⟨64, _⟩ => ⟨S64, .i32⟩
  | .hbm, ⟨65, _⟩ => ⟨S64, .i32⟩
  | .hbm, ⟨66, _⟩ => ⟨S64x1, .i32⟩
  | .hbm, ⟨67, _⟩ => ⟨S64x1, .i32⟩
  | .hbm, ⟨68, _⟩ => ⟨S64x2, .i32⟩
  | .hbm, ⟨69, _⟩ => ⟨S4096x64x64, .f32⟩
  | .hbm, ⟨70, _⟩ => ⟨S4096x64x100, .f32⟩
  | .local _ .vmem, ⟨0, _⟩ => ⟨S512x512, .f32⟩
  | .local _ .vmem, ⟨1, _⟩ => ⟨S512x512, .f32⟩
  | .local _ .vmem, ⟨2, _⟩ => ⟨S2144x512, .f32⟩
  | .local _ .vmem, ⟨3, _⟩ => ⟨S1x2144, .f32⟩
  | .local _ .vmem, ⟨4, _⟩ => ⟨S512x2144, .f32⟩
  | .local _ .vmem, ⟨5, _⟩ => ⟨S512x2144, .f32⟩
  | .local _ .vmem, ⟨6, _⟩ => ⟨S128x64, .f32⟩
  | .local _ .vmem, ⟨7, _⟩ => ⟨S128x64, .f32⟩
  | .local _ .vmem, ⟨8, _⟩ => ⟨S128x64x64, .f32⟩
  | .local _ .vmem, ⟨9, _⟩ => ⟨S128x64x64, .f32⟩
  | .local _ .vmem, ⟨10, _⟩ => ⟨S128x64x100, .f32⟩
  | .local _ .vmem, ⟨11, _⟩ => ⟨S128x64x100, .f32⟩
  | .local _ .vmem, ⟨12, _⟩ => ⟨S128x64x100, .f32⟩
  | .local _ .vmem, ⟨13, _⟩ => ⟨S128x64x100, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_c_5 : Ref sig .tc := ⟨.hbm, 12, rfl⟩
abbrev main_c_6 : Ref sig .tc := ⟨.hbm, 13, rfl⟩
abbrev main_c_7 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_c_8 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_10 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_v22 : Ref sig .tc := ⟨.hbm, 54, rfl⟩
abbrev main_cst_11 : Ref sig .tc := ⟨.hbm, 55, rfl⟩
abbrev main_v23 : Ref sig .tc := ⟨.hbm, 56, rfl⟩
abbrev main_v24 : Ref sig .tc := ⟨.hbm, 57, rfl⟩
abbrev main_c_12 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_13 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2144x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x64x100 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x64x100 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S64x512_S2080x512_S2144x512_d0 : Shape.Concatenates [S64x512, S2080x512] S2144x512 0
  concatenates_S64_S2080_S2144_d0 : Shape.Concatenates [S64, S2080] S2144 0
  shapeCasts_S2144_S1x2144 : S2144.ShapeCasts S1x2144
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S2144x512_S2144x512_0_0 : ∀ a, (![0, 0] : Fin 2 → Nat) a + S2144x512.size a ≤ S2144x512.size a
  h_S2144x512 : 0 < S2144x512.numel
  shapeCasts_S2144x512_S2144x512 : S2144x512.ShapeCasts S2144x512
  inb_S1x2144_S1x2144_0_0 : ∀ a, (![0, 0] : Fin 2 → Nat) a + S1x2144.size a ≤ S1x2144.size a
  h_S1x2144 : 0 < S1x2144.numel
  shapeCasts_S1x2144_S1x2144 : S1x2144.ShapeCasts S1x2144
  broadcasts_S1x2144_S512x2144 : S1x2144.Broadcasts S512x2144
  inb_S512x2144_S512x2144_0_0 : ∀ a, (![0, 0] : Fin 2 → Nat) a + S512x2144.size a ≤ S512x2144.size a
  h_S512x2144 : 0 < S512x2144.numel
  slices_S4096x2144_S4096x64_0_0 : S4096x2144.Slices ![0, 0] S4096x64
  slices_S4096x2144_S4096x2080_0_64 : S4096x2144.Slices ![0, 64] S4096x2080
  bcast_S_S4096x64x64 : S_.BroadcastsInDim S4096x64x64 (![] : Fin 0 → Fin S4096x64x64.rank)
  bcast_S_S2080 : S_.BroadcastsInDim S2080 (![] : Fin 0 → Fin S2080.rank)
  bcast_S2080_S2080x1_0 : S2080.BroadcastsInDim S2080x1 (![0] : Fin 1 → Fin S2080x1.rank)
  concatenates_S2080x1_S2080x1_S2080x2_d1 : Shape.Concatenates [S2080x1, S2080x1] S2080x2 1
  bcast_S_S64 : S_.BroadcastsInDim S64 (![] : Fin 0 → Fin S64.rank)
  bcast_S64_S64x1_0 : S64.BroadcastsInDim S64x1 (![0] : Fin 1 → Fin S64x1.rank)
  bcast_S_S4096x64 : S_.BroadcastsInDim S4096x64 (![] : Fin 0 → Fin S4096x64.rank)
  concatenates_S64x1_S64x1_S64x2_d1 : Shape.Concatenates [S64x1, S64x1] S64x2 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x64x64_S128x64x64_0_0_0 : ∀ a, (![0, 0, 0] : Fin 3 → Nat) a + S128x64x64.size a ≤ S128x64x64.size a
  h_S128x64x64 : 0 < S128x64x64.numel
  shapeCasts_S128x64x64_S128x64x64 : S128x64x64.ShapeCasts S128x64x64
  inb_S128x64x100_S128x64x100_0_0_0 : ∀ a, (![0, 0, 0] : Fin 3 → Nat) a + S128x64x100.size a ≤ S128x64x100.size a
  h_S128x64x100 : 0 < S128x64x100.numel
  shapeCasts_S128x64_S128x64x1 : S128x64.ShapeCasts S128x64x1
  broadcasts_S128x64x1_S128x64x100 : S128x64x1.Broadcasts S128x64x100
  dot_S512x512_S2144x512_S512x2144_1_1_0_0_n_n_wf : DotDims.WF S512x512 S2144x512 S512x2144 [1] [1] [0] [0] [] []
  scatter_S4096x64x64_S2080x2_S4096x2080_0_12_12_1_wf : ScatterDims.WF S4096x64x64 S2080x2 S4096x2080 [0] [1, 2] [1, 2] 1
  gather_S4096x2080_S64x1_S4096x64_0_1_n_n_1_1_40961_wf : GatherDims.WF S4096x2080 S64x1 S4096x64 [0] [1] [] [1] [] 1 ![4096, 1]
  scatter_S4096x64x64_S64x2_S4096x64_0_12_12_1_wf : ScatterDims.WF S4096x64x64 S64x2 S4096x64 [0] [1, 2] [1, 2] 1
  dot_S128x64x64_S128x64x100_S128x64x100_2_1_1_2_0_0_wf : DotDims.WF S128x64x64 S128x64x100 S128x64x100 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2144x512.size a ≤ S2144x512.size a
  hwx0_1 : ∀ i : grid0.Coords, EltTy.bits .f32 = 32 ∨ (Rect.block (s := S2144x512) S2144x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2144.size a ≤ S1x2144.size a
  hwx0_2 : ∀ i : grid0.Coords, EltTy.bits .f32 = 32 ∨ (Rect.block (s := S1x2144) S1x2144.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2144.size a ≤ S4096x2144.size a
  hwx0_3 : ∀ i : grid0.Coords, EltTy.bits .f32 = 32 ∨ (Rect.block (s := S4096x2144) S512x2144.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S4096x64.size a
  hwx1_0 : ∀ i : grid1.Coords, EltTy.bits .f32 = 32 ∨ (Rect.block (s := S4096x64) S128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x64x64.size a ≤ S4096x64x64.size a
  hwx1_1 : ∀ i : grid1.Coords, EltTy.bits .f32 = 32 ∨ (Rect.block (s := S4096x64x64) S128x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64x100.size a ≤ S4096x64x100.size a
  hwx1_2 : ∀ i : grid1.Coords, EltTy.bits .f32 = 32 ∨ (Rect.block (s := S4096x64x100) S128x64x100.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x64x100.size a ≤ S4096x64x100.size a
  hwx1_3 : ∀ i : grid1.Coords, EltTy.bits .f32 = 32 ∨ (Rect.block (s := S4096x64x100) S128x64x100.size (cc1_transform_3 i) (hinb1_3 i)).WholeWords (EltTy.packing .f32)

variable [Facts₀]

def dot_S512x512_S2144x512_S512x2144_1_1_0_0_n_n : DotDims S512x512 S2144x512 S512x2144 where
  lhsContracting := [1]
  rhsContracting := [1]
  lhsNonContracting := [0]
  rhsNonContracting := [0]
  lhsBatch := []
  rhsBatch := []
  wf := dot_S512x512_S2144x512_S512x2144_1_1_0_0_n_n_wf
def scatter_S4096x64x64_S2080x2_S4096x2080_0_12_12_1 : ScatterDims S4096x64x64 S2080x2 S4096x2080 where
  updateWindowDims := [0]
  insertedWindowDims := [1, 2]
  scatterDimsToOperandDims := [1, 2]
  indexVectorDim := 1
  wf := scatter_S4096x64x64_S2080x2_S4096x2080_0_12_12_1_wf
def gather_S4096x2080_S64x1_S4096x64_0_1_n_n_1_1_40961 : GatherDims S4096x2080 S64x1 S4096x64 where
  offsetDims := [0]
  collapsedSliceDims := [1]
  operandBatchingDims := []
  startIndicesBatchingDims := []
  startIndexMap := [1]
  indexVectorDim := 1
  sliceSizes := ![4096, 1]
  wf := gather_S4096x2080_S64x1_S4096x64_0_1_n_n_1_1_40961_wf
def scatter_S4096x64x64_S64x2_S4096x64_0_12_12_1 : ScatterDims S4096x64x64 S64x2 S4096x64 where
  updateWindowDims := [0]
  insertedWindowDims := [1, 2]
  scatterDimsToOperandDims := [1, 2]
  indexVectorDim := 1
  wf := scatter_S4096x64x64_S64x2_S4096x64_0_12_12_1_wf
def dot_S128x64x64_S128x64x100_S128x64x100_2_1_1_2_0_0 : DotDims S128x64x64 S128x64x100 S128x64x100 where
  lhsContracting := [2]
  rhsContracting := [1]
  lhsNonContracting := [1]
  rhsNonContracting := [2]
  lhsBatch := [0]
  rhsBatch := [0]
  wf := dot_S128x64x64_S128x64x100_S128x64x100_2_1_1_2_0_0_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2144x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2144.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x2144.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S128x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x64x100.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x64x100.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x512 : Shape := ⟨2, ![4096, 512]⟩
abbrev S4096x64x100 : Shape := ⟨3, ![4096, 64, 100]⟩
abbrev S64x512 : Shape := ⟨2, ![64, 512]⟩
abbrev S64 : Shape := ⟨1, ![64]⟩
abbrev S2080x512 : Shape := ⟨2, ![2080, 512]⟩
abbrev S2080 : Shape := ⟨1, ![2080]⟩
abbrev S512x64 : Shape := ⟨2, ![512, 64]⟩
abbrev S4096x64 : Shape := ⟨2, ![4096, 64]⟩
abbrev S1x64 : Shape := ⟨2, ![1, 64]⟩
abbrev S512x2080 : Shape := ⟨2, ![512, 2080]⟩
abbrev S4096x2080 : Shape := ⟨2, ![4096, 2080]⟩
abbrev S1x2080 : Shape := ⟨2, ![1, 2080]⟩
abbrev S_ : Shape := ⟨0, ![]⟩
abbrev S4096x64x64 : Shape := ⟨3, ![4096, 64, 64]⟩
abbrev S2080x1 : Shape := ⟨2, ![2080, 1]⟩
abbrev S2080x2 : Shape := ⟨2, ![2080, 2]⟩
abbrev S64x1 : Shape := ⟨2, ![64, 1]⟩
abbrev S64x2 : Shape := ⟨2, ![64, 2]⟩
abbrev S4096x64x1 : Shape := ⟨3, ![4096, 64, 1]⟩

abbrev nBuf : Space → Nat
  | .hbm => 86
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x64x100, .f32⟩
  | .hbm, ⟨2, _⟩ => ⟨S64x512, .f32⟩
  | .hbm, ⟨3, _⟩ => ⟨S64, .f32⟩
  | .hbm, ⟨4, _⟩ => ⟨S2080x512, .f32⟩
  | .hbm, ⟨5, _⟩ => ⟨S2080, .f32⟩
  | .hbm, ⟨6, _⟩ => ⟨S2080, .i32⟩
  | .hbm, ⟨7, _⟩ => ⟨S2080, .i1⟩
  | .hbm, ⟨8, _⟩ => ⟨S2080, .i32⟩
  | .hbm, ⟨9, _⟩ => ⟨S2080, .i1⟩
  | .hbm, ⟨10, _⟩ => ⟨S64, .i32⟩
  | .hbm, ⟨11, _⟩ => ⟨S64, .i1⟩
  | .hbm, ⟨12, _⟩ => ⟨S64, .i32⟩
  | .hbm, ⟨13, _⟩ => ⟨S64, .i1⟩
  | .hbm, ⟨14, _⟩ => ⟨S64, .i1⟩
  | .hbm, ⟨15, _⟩ => ⟨S512x64, .f32⟩
  | .hbm, ⟨16, _⟩ => ⟨S4096x64, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S512x2080, .f32⟩
  | .hbm, ⟨21, _⟩ => ⟨S4096x2080, .f32⟩
  | .hbm, ⟨22, _⟩ => ⟨S1x2080, .f32⟩
  | .hbm, ⟨23, _⟩ => ⟨S4096x2080, .f32⟩
  | .hbm, ⟨24, _⟩ => ⟨S4096x2080, .f32⟩
  | .hbm, ⟨25, _⟩ => ⟨S_, .f32⟩
  | .hbm, ⟨26, _⟩ => ⟨S4096x64x64, .f32⟩
  | .hbm, ⟨27, _⟩ => ⟨S_, .i32⟩
  | .hbm, ⟨28, _⟩ => ⟨S2080, .i32⟩
  | .hbm, ⟨29, _⟩ => ⟨S2080, .i32⟩
  | .hbm, ⟨30, _⟩ => ⟨S2080, .i32⟩
  | .hbm, ⟨31, _⟩ => ⟨S_, .i32⟩
  | .hbm, ⟨32, _⟩ => ⟨S2080, .i32⟩
  | .hbm, ⟨33, _⟩ => ⟨S2080, .i32⟩
  | .hbm, ⟨34, _⟩ => ⟨S2080, .i32⟩
  | .hbm, ⟨35, _⟩ => ⟨S2080x1, .i32⟩
  | .hbm, ⟨36, _⟩ => ⟨S2080x1, .i32⟩
  | .hbm, ⟨37, _⟩ => ⟨S2080x2, .i32⟩
  | .hbm, ⟨38, _⟩ => ⟨S4096x64x64, .f32⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S64, .i32⟩
  | .hbm, ⟨43, _⟩ => ⟨S64x1, .i32⟩
  | .hbm, ⟨44, _⟩ => ⟨S4096x64, .f32⟩
  | .hbm, ⟨45, _⟩ => ⟨S_, .f32⟩
  | .hbm, ⟨46, _⟩ => ⟨S4096x64, .f32⟩
  | .hbm, ⟨47, _⟩ => ⟨S4096x64, .f32⟩
  | .hbm, ⟨48, _⟩ => ⟨S4096x64, .f32⟩
  | .hbm, ⟨49, _⟩ => ⟨S4096x64, .f32⟩
  | .hbm, ⟨50, _⟩ => ⟨S4096x64, .i1⟩
  | .hbm, ⟨51, _⟩ => ⟨S4096x64, .f32⟩
  | .hbm, ⟨52, _⟩ => ⟨S4096x64, .f32⟩
  | .hbm, ⟨53, _⟩ => ⟨S4096x64, .f32⟩
  | .hbm, ⟨54, _⟩ => ⟨S4096x64, .f32⟩
  | .hbm, ⟨55, _⟩ => ⟨S4096x64, .f32⟩
  | .hbm, ⟨56, _⟩ => ⟨S4096x64, .f32⟩
  | .hbm, ⟨57, _⟩ => ⟨S4096x64, .f32⟩
  | .hbm, ⟨58, _⟩ => ⟨S4096x64, .f32⟩
  | .hbm, ⟨59, _⟩ => ⟨S_, .f32⟩
  | .hbm, ⟨60, _⟩ => ⟨S4096x64, .f32⟩
  | .hbm, ⟨61, _⟩ => ⟨S4096x64, .f32⟩
  | .hbm, ⟨62, _⟩ => ⟨S_, .i32⟩
  | .hbm, ⟨63, _⟩ => ⟨S64, .i32⟩
  | .hbm, ⟨64, _⟩ => ⟨S64, .i32⟩
  | .hbm, ⟨65, _⟩ => ⟨S64, .i32⟩
  | .hbm, ⟨66, _⟩ => ⟨S_, .i32⟩
  | .hbm, ⟨67, _⟩ => ⟨S64, .i32⟩
  | .hbm, ⟨68, _⟩ => ⟨S64, .i32⟩
  | .hbm, ⟨69, _⟩ => ⟨S64, .i32⟩
  | .hbm, ⟨70, _⟩ => ⟨S64x1, .i32⟩
  | .hbm, ⟨71, _⟩ => ⟨S64x1, .i32⟩
  | .hbm, ⟨72, _⟩ => ⟨S64x2, .i32⟩
  | .hbm, ⟨73, _⟩ => ⟨S4096x64x64, .f32⟩
  | .hbm, ⟨74, _⟩ => ⟨S4096x64x1, .f32⟩
  | .hbm, ⟨75, _⟩ => ⟨S4096x64x100, .f32⟩
  | .hbm, ⟨76, _⟩ => ⟨S4096x64x100, .f32⟩
  | .hbm, ⟨77, _⟩ => ⟨S4096x64x100, .f32⟩
  | .hbm, ⟨78, _⟩ => ⟨S4096x64x100, .f32⟩
  | .hbm, ⟨79, _⟩ => ⟨S4096x64x100, .f32⟩
  | .hbm, ⟨80, _⟩ => ⟨S_, .f32⟩
  | .hbm, ⟨81, _⟩ => ⟨S4096x64x100, .f32⟩
  | .hbm, ⟨82, _⟩ => ⟨S4096x64x100, .f32⟩
  | .hbm, ⟨83, _⟩ => ⟨S_, .f32⟩
  | .hbm, ⟨84, _⟩ => ⟨S4096x64x100, .f32⟩
  | .hbm, ⟨85, _⟩ => ⟨S4096x64x100, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_c_5 : Ref sig .tc := ⟨.hbm, 12, rfl⟩
abbrev main_c_6 : Ref sig .tc := ⟨.hbm, 13, rfl⟩
abbrev main_c_7 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_c_8 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_9 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_10 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_v26 : Ref sig .tc := ⟨.hbm, 58, rfl⟩
abbrev main_cst_11 : Ref sig .tc := ⟨.hbm, 59, rfl⟩
abbrev main_v27 : Ref sig .tc := ⟨.hbm, 60, rfl⟩
abbrev main_v28 : Ref sig .tc := ⟨.hbm, 61, rfl⟩
abbrev main_c_12 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_13 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_14 : Ref sig .tc := ⟨.hbm, 80, rfl⟩
abbrev main_v45 : Ref sig .tc := ⟨.hbm, 81, rfl⟩
abbrev main_v46 : Ref sig .tc := ⟨.hbm, 82, rfl⟩
abbrev main_cst_15 : Ref sig .tc := ⟨.hbm, 83, rfl⟩
abbrev main_v47 : Ref sig .tc := ⟨.hbm, 84, rfl⟩
abbrev main_v48 : Ref sig .tc := ⟨.hbm, 85, rfl⟩

abbrev nD : Nat := 1
abbrev τ : Topo := Topo.v7x

variable {F : FTy → Type} [FloatOps F]

class Facts₀ : Prop where
  transposes_S64x512_S512x64_1_0 : S64x512.Transposes [1, 0] S512x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  transposes_S2080x512_S512x2080_1_0 : S2080x512.Transposes [1, 0] S512x2080
  bcast_S2080_S1x2080_1 : S2080.BroadcastsInDim S1x2080 (![1] : Fin 1 → Fin S1x2080.rank)
  bcast_S1x2080_S4096x2080_0_1 : S1x2080.BroadcastsInDim S4096x2080 (![0, 1] : Fin 2 → Fin S4096x2080.rank)
  bcast_S_S4096x64x64 : S_.BroadcastsInDim S4096x64x64 (![] : Fin 0 → Fin S4096x64x64.rank)
  bcast_S_S2080 : S_.BroadcastsInDim S2080 (![] : Fin 0 → Fin S2080.rank)
  bcast_S2080_S2080x1_0 : S2080.BroadcastsInDim S2080x1 (![0] : Fin 1 → Fin S2080x1.rank)
  concatenates_S2080x1_S2080x1_S2080x2_d1 : Shape.Concatenates [S2080x1, S2080x1] S2080x2 1
  bcast_S_S64 : S_.BroadcastsInDim S64 (![] : Fin 0 → Fin S64.rank)
  bcast_S64_S64x1_0 : S64.BroadcastsInDim S64x1 (![0] : Fin 1 → Fin S64x1.rank)
  bcast_S_S4096x64 : S_.BroadcastsInDim S4096x64 (![] : Fin 0 → Fin S4096x64.rank)
  concatenates_S64x1_S64x1_S64x2_d1 : Shape.Concatenates [S64x1, S64x1] S64x2 1
  bcast_S4096x64_S4096x64x1_0_1 : S4096x64.BroadcastsInDim S4096x64x1 (![0, 1] : Fin 2 → Fin S4096x64x1.rank)
  bcast_S4096x64x1_S4096x64x100_0_1_2 : S4096x64x1.BroadcastsInDim S4096x64x100 (![0, 1, 2] : Fin 3 → Fin S4096x64x100.rank)
  bcast_S_S4096x64x100 : S_.BroadcastsInDim S4096x64x100 (![] : Fin 0 → Fin S4096x64x100.rank)
  dot_S4096x512_S512x64_S4096x64_1_0_0_1_n_n_wf : DotDims.WF S4096x512 S512x64 S4096x64 [1] [0] [0] [1] [] []
  dot_S4096x512_S512x2080_S4096x2080_1_0_0_1_n_n_wf : DotDims.WF S4096x512 S512x2080 S4096x2080 [1] [0] [0] [1] [] []
  scatter_S4096x64x64_S2080x2_S4096x2080_0_12_12_1_wf : ScatterDims.WF S4096x64x64 S2080x2 S4096x2080 [0] [1, 2] [1, 2] 1
  gather_S4096x2080_S64x1_S4096x64_0_1_n_n_1_1_40961_wf : GatherDims.WF S4096x2080 S64x1 S4096x64 [0] [1] [] [1] [] 1 ![4096, 1]
  scatter_S4096x64x64_S64x2_S4096x64_0_12_12_1_wf : ScatterDims.WF S4096x64x64 S64x2 S4096x64 [0] [1, 2] [1, 2] 1
  dot_S4096x64x64_S4096x64x100_S4096x64x100_2_1_1_2_0_0_wf : DotDims.WF S4096x64x64 S4096x64x100 S4096x64x100 [2] [1] [1] [2] [0] [0]

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4096x512_S512x2080_S4096x2080_1_0_0_1_n_n : DotDims S4096x512 S512x2080 S4096x2080 where
  lhsContracting := [1]
  rhsContracting := [0]
  lhsNonContracting := [0]
  rhsNonContracting := [1]
  lhsBatch := []
  rhsBatch := []
  wf := dot_S4096x512_S512x2080_S4096x2080_1_0_0_1_n_n_wf
def scatter_S4096x64x64_S2080x2_S4096x2080_0_12_12_1 : ScatterDims S4096x64x64 S2080x2 S4096x2080 where
  updateWindowDims := [0]
  insertedWindowDims := [1, 2]
  scatterDimsToOperandDims := [1, 2]
  indexVectorDim := 1
  wf := scatter_S4096x64x64_S2080x2_S4096x2080_0_12_12_1_wf
def gather_S4096x2080_S64x1_S4096x64_0_1_n_n_1_1_40961 : GatherDims S4096x2080 S64x1 S4096x64 where
  offsetDims := [0]
  collapsedSliceDims := [1]
  operandBatchingDims := []
  startIndicesBatchingDims := []
  startIndexMap := [1]
  indexVectorDim := 1
  sliceSizes := ![4096, 1]
  wf := gather_S4096x2080_S64x1_S4096x64_0_1_n_n_1_1_40961_wf
def scatter_S4096x64x64_S64x2_S4096x64_0_12_12_1 : ScatterDims S4096x64x64 S64x2 S4096x64 where
  updateWindowDims := [0]
  insertedWindowDims := [1, 2]
  scatterDimsToOperandDims := [1, 2]
  indexVectorDim := 1
  wf := scatter_S4096x64x64_S64x2_S4096x64_0_12_12_1_wf
def dot_S4096x64x64_S4096x64x100_S4096x64x100_2_1_1_2_0_0 : DotDims S4096x64x64 S4096x64x100 S4096x64x100 where
  lhsContracting := [2]
  rhsContracting := [1]
  lhsNonContracting := [1]
  rhsNonContracting := [2]
  lhsBatch := [0]
  rhsBatch := [0]
  wf := dot_S4096x64x64_S4096x64x100_S4096x64x100_2_1_1_2_0_0_wf

class Facts : Prop extends Facts₀ where

variable [Facts]
-- ==== Proof.Spec.lean ====
/-
  The mathematics both programs compute, as functions of the argument arrays over the extended reals.

  A linear head sends row p of the activations x and row q of a weight matrix w to the inner product of the two rows
  plus a bias entry. The sampling step sends a mean c, a scale matrix L (one 64 × 64 matrix per batch entry) and a
  noise array e to the logistic function of c + L · e, entry by entry.
-/
import Idealize.ShloMosaic.PureOps.Ideal
import Idealize.ShloMosaic.Lib.ValueIdx

noncomputable section

namespace Cert.Spec

open Idealize.ShloMosaic Idealize.ShloMosaic.ValueIdx

/-- Entry (p, q) of a linear head whose bias is a vector: the inner product of row p of x with row q of w, plus b q. -/
def linAt {B K N : ℕ} (x : FVec Ideal ⟨2, ![B, K]⟩ .f32) (w : FVec Ideal ⟨2, ![N, K]⟩ .f32) (b : FVec Ideal ⟨1, ![N]⟩ .f32)
    (p : Fin B) (q : Fin N) : EReal :=
  (∑ k : Fin K, x (ix2 p k) * w (ix2 q k)) + b (ix1 q)

/-- The linear head as an array. -/
def lin {B K N : ℕ} (x : FVec Ideal ⟨2, ![B, K]⟩ .f32) (w : FVec Ideal ⟨2, ![N, K]⟩ .f32) (b : FVec Ideal ⟨1, ![N]⟩ .f32) :
    FVec Ideal ⟨2, ![B, N]⟩ .f32 :=
  fun i => linAt x w b (i 0) (i 1)

/-- Entry (p, q) of a linear head whose bias is a one-row matrix. -/
def linRowAt {B K N : ℕ} (x : FVec Ideal ⟨2, ![B, K]⟩ .f32) (w : FVec Ideal ⟨2, ![N, K]⟩ .f32) (b : FVec Ideal ⟨2, ![1, N]⟩ .f32)
    (p : Fin B) (q : Fin N) : EReal :=
  (∑ k : Fin K, x (ix2 p k) * w (ix2 q k)) + b (ix2 (0 : Fin 1) q)

/-- The same as an array. -/
def linRow {B K N : ℕ} (x : FVec Ideal ⟨2, ![B, K]⟩ .f32) (w : FVec Ideal ⟨2, ![N, K]⟩ .f32) (b : FVec Ideal ⟨2, ![1, N]⟩ .f32) :
    FVec Ideal ⟨2, ![B, N]⟩ .f32 :=
  fun i => linRowAt x w b (i 0) (i 1)

/-- Entry (b, i, t) of the sample: the logistic function of the mean at (b, i) plus row i of the scale matrix of batch
    entry b against column t of that entry's noise. -/
def sampAt {B C M : ℕ} (c : FVec Ideal ⟨2, ![B, C]⟩ .f32) (L : FVec Ideal ⟨3, ![B, C, C]⟩ .f32) (e : FVec Ideal ⟨3, ![B, C, M]⟩ .f32)
    (b : Fin B) (i : Fin C) (t : Fin M) : EReal :=
  Ideal.logistic (c (ix2 b i) + ∑ j : Fin C, L (ix3 b i j) * e (ix3 b j t))

/-- The sample as an array. -/
def samp {B C M : ℕ} (c : FVec Ideal ⟨2, ![B, C]⟩ .f32) (L : FVec Ideal ⟨3, ![B, C, C]⟩ .f32) (e : FVec Ideal ⟨3, ![B, C, M]⟩ .f32) :
    FVec Ideal ⟨3, ![B, C, M]⟩ .f32 :=
  fun j => sampAt c L e (j 0) (j 1) (j 2)

theorem lin_apply {B K N : ℕ} (x : FVec Ideal ⟨2, ![B, K]⟩ .f32) (w : FVec Ideal ⟨2, ![N, K]⟩ .f32) (b : FVec Ideal ⟨1, ![N]⟩ .f32)
    (p : Fin B) (q : Fin N) : lin x w b (ix2 p q) = linAt x w b p q := rfl

theorem linRow_apply {B K N : ℕ} (x : FVec Ideal ⟨2, ![B, K]⟩ .f32) (w : FVec Ideal ⟨2, ![N, K]⟩ .f32) (b : FVec Ideal ⟨2, ![1, N]⟩ .f32)
    (p : Fin B) (q : Fin N) : linRow x w b (ix2 p q) = linRowAt x w b p q := rfl

theorem samp_apply {B C M : ℕ} (c : FVec Ideal ⟨2, ![B, C]⟩ .f32) (L : FVec Ideal ⟨3, ![B, C, C]⟩ .f32) (e : FVec Ideal ⟨3, ![B, C, M]⟩ .f32)
    (b : Fin B) (i : Fin C) (t : Fin M) : samp c L e (ix3 b i t) = sampAt c L e b i t := rfl

end Cert.Spec

end
-- ==== Proof.LibDot.lean ====
/-
  Two more matrix products read at an entry, beside the plain [M × K] by [K × N] one.

  * Rows against rows: for dimension numbers that contract axis 1 of both operands and have no batch axis, entry (p, q)
    of an [M × K] by [N × K] product is the sum over k of left (p, k) times right (q, k).
  * One product per batch entry: for dimension numbers with batch axis 0 on both sides, contracting the left operand's
    axis 2 with the right operand's axis 1, entry (b, p, q) of a [B × M × K] by [B × K × N] product is the sum over k of
    left (b, p, k) times right (b, k, q).
  Each for the vector unit's product into a zero accumulator and for the host's general dot. The hypotheses are the
  printed dimension numbers, each closed by `rfl` at a use.
-/
import Idealize.ShloMosaic.PureOps.Ideal
import Idealize.ShloMosaic.PureOps.Ideal.Laws
import Idealize.ShloMosaic.Lib.ValueIdx

noncomputable section

namespace Cert.LibDot

open Idealize.ShloMosaic Idealize.ShloMosaic.ValueIdx

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

section RowsAgainstRows

variable {M K N : ℕ} (d : DotDims ⟨2, ![M, K]⟩ ⟨2, ![N, K]⟩ ⟨2, ![M, N]⟩)

/-- The left operand's row is the result's row: its one free axis is the first of the result's axes. -/
theorem nt_lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem nt_lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column: its one free axis comes after the left operand's one. -/
theorem nt_rhs_row (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The right operand's column is the contraction index. -/
theorem nt_rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- The contraction shape has one axis, of extent K. -/
theorem nt_contr_rank (hlc : d.lhsContracting = [1]) : d.contr.rank = 1 := by rw [d.rank_contr, hlc]; rfl

theorem nt_contr_size (hlc : d.lhsContracting = [1]) :
    d.contr.size ⟨0, by rw [nt_contr_rank d hlc]; exact Nat.one_pos⟩ = K := by
  have h := d.size_contr 0 (by rw [hlc]; exact Nat.one_pos)
  rw [h]
  simp [hlc]

/-- The sum over the contraction index is the sum over k of left (p, k) · right (q, k). -/
theorem sum_contr_nt (hlc : d.lhsContracting = [1]) (hrc : d.rhsContracting = [1]) (hln : d.lhsNonContracting = [0])
    (hrn : d.rhsNonContracting = [0]) (hlb : d.lhsBatch = []) (hrb : d.rhsBatch = [])
    (x : (⟨2, ![M, K]⟩ : Shape).Idx → EReal) (w : (⟨2, ![N, K]⟩ : Shape).Idx → EReal) (p : Fin M) (q : Fin N) :
    ∑ k : d.contr.Idx, x (d.lhsIdx (ix2 p q) k) * w (d.rhsIdx (ix2 p q) k) = ∑ kk : Fin K, x (ix2 p kk) * w (ix2 q kk) := by
  rw [← Equiv.sum_comp (contrEquiv1 d K (nt_contr_rank d hlc) (nt_contr_size d hlc)).symm]
  refine Finset.sum_congr rfl fun kk _ => ?_
  have hk := contrEquiv1_symm_val d K (nt_contr_rank d hlc) (nt_contr_size d hlc) kk
  have el : d.lhsIdx (ix2 p q) ((contrEquiv1 d K (nt_contr_rank d hlc) (nt_contr_size d hlc)).symm kk) = ix2 p kk := by
    funext a; apply Fin.ext
    match a with
    | ⟨0, _⟩ => exact nt_lhs_row d hln hlb _ _
    | ⟨1, _⟩ => exact (nt_lhs_col d hlc _ _).trans hk
  have er : d.rhsIdx (ix2 p q) ((contrEquiv1 d K (nt_contr_rank d hlc) (nt_contr_size d hlc)).symm kk) = ix2 q kk := by
    funext a; apply Fin.ext
    match a with
    | ⟨0, _⟩ => exact nt_rhs_row d hln hrn hlb hrb _ _
    | ⟨1, _⟩ => exact (nt_rhs_col d hrc _ _).trans hk
  rw [el, er]

/-- The vector unit's product into a zero accumulator, rows against rows, read at (p, q). -/
theorem matmul_nt_zero_apply {φ₁ φ₂ : FTy} (prec : Option ContractPrecision)
    (hlc : d.lhsContracting = [1]) (hrc : d.rhsContracting = [1]) (hln : d.lhsNonContracting = [0])
    (hrn : d.rhsNonContracting = [0]) (hlb : d.lhsBatch = []) (hrb : d.rhsBatch = [])
    (x : FVec Ideal ⟨2, ![M, K]⟩ φ₁) (w : FVec Ideal ⟨2, ![N, K]⟩ φ₂) (p : Fin M) (q : Fin N) :
    FloatOps.matmul d prec x w (constant ⟨2, ![M, N]⟩ .f32 0x00000000#32) (ix2 p q) = ∑ kk : Fin K, x (ix2 p kk) * w (ix2 q kk) := by
  rw [Ideal.matmul_constant_zero_apply]
  exact sum_contr_nt d hlc hrc hln hrn hlb hrb x w p q

end RowsAgainstRows

section Batched

variable {B M K N : ℕ} (d : DotDims ⟨3, ![B, M, K]⟩ ⟨3, ![B, K, N]⟩ ⟨3, ![B, M, N]⟩)

/-- The left operand's batch coordinate is the result's: the batch axis is the first of the result's axes. -/
theorem b_lhs_batch (hlb : d.lhsBatch = [0]) (j : (⟨3, ![B, M, N]⟩ : Shape).Idx) (k : d.contr.Idx) :
    (d.lhsIdx j k 0).val = (j 0).val := by
  have hb : (0 : Fin 3) ∈ d.lhsBatch := by rw [hlb]; exact List.mem_singleton.mpr rfl
  unfold DotDims.lhsIdx
  rw [dif_pos hb]
  simp only [Fin.val_cast]
  exact coord_val_congr j _ _ _ _ (by simp [hlb])

/-- The left operand's row is the result's row: its one free axis comes right after the batch axis. -/
theorem b_lhs_row (hln : d.lhsNonContracting = [1]) (hlb : d.lhsBatch = [0])
    (j : (⟨3, ![B, M, N]⟩ : Shape).Idx) (k : d.contr.Idx) : (d.lhsIdx j k 1).val = (j 1).val := by
  have hb : (1 : Fin 3) ∉ d.lhsBatch := by
    rw [hlb]; exact fun h => absurd (congrArg Fin.val (List.mem_singleton.mp h)) Nat.one_ne_zero
  have hn : (1 : Fin 3) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem b_lhs_col (hlc : d.lhsContracting = [2]) (j : (⟨3, ![B, M, N]⟩ : Shape).Idx) (k : d.contr.Idx) :
    (d.lhsIdx j k 2).val = (k ⟨0, by rw [d.rank_contr, hlc]; exact Nat.one_pos⟩).val :=
  d.lhsIdx_val_of_single hlc j k

/-- The right operand's batch coordinate is the result's. -/
theorem b_rhs_batch (hrb : d.rhsBatch = [0]) (j : (⟨3, ![B, M, N]⟩ : Shape).Idx) (k : d.contr.Idx) :
    (d.rhsIdx j k 0).val = (j 0).val := by
  have hb : (0 : Fin 3) ∈ d.rhsBatch := by rw [hrb]; exact List.mem_singleton.mpr rfl
  unfold DotDims.rhsIdx
  rw [dif_pos hb]
  simp only [Fin.val_cast]
  exact coord_val_congr j _ _ _ _ (by simp [hrb])

/-- The right operand's row is the contraction index. -/
theorem b_rhs_row (hrc : d.rhsContracting = [1]) (j : (⟨3, ![B, M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- The right operand's column is the result's column: its one free axis comes after the batch axis and the left
    operand's free axis. -/
theorem b_rhs_col (hln : d.lhsNonContracting = [1]) (hrn : d.rhsNonContracting = [2]) (hlb : d.lhsBatch = [0])
    (hrb : d.rhsBatch = [0]) (j : (⟨3, ![B, M, N]⟩ : Shape).Idx) (k : d.contr.Idx) : (d.rhsIdx j k 2).val = (j 2).val := by
  have hb : (2 : Fin 3) ∉ d.rhsBatch := by
    rw [hrb]; exact fun h => absurd (congrArg Fin.val (List.mem_singleton.mp h)) (Nat.succ_ne_zero 1)
  have hn : (2 : Fin 3) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem b_contr_rank (hlc : d.lhsContracting = [2]) : d.contr.rank = 1 := by rw [d.rank_contr, hlc]; rfl

theorem b_contr_size (hlc : d.lhsContracting = [2]) :
    d.contr.size ⟨0, by rw [b_contr_rank d hlc]; exact Nat.one_pos⟩ = K := by
  have h := d.size_contr 0 (by rw [hlc]; exact Nat.one_pos)
  rw [h]
  simp [hlc]

/-- The sum over the contraction index is the sum over k of left (b, p, k) · right (b, k, q). -/
theorem sum_contr_batched (hlc : d.lhsContracting = [2]) (hrc : d.rhsContracting = [1]) (hln : d.lhsNonContracting = [1])
    (hrn : d.rhsNonContracting = [2]) (hlb : d.lhsBatch = [0]) (hrb : d.rhsBatch = [0])
    (x : (⟨3, ![B, M, K]⟩ : Shape).Idx → EReal) (w : (⟨3, ![B, K, N]⟩ : Shape).Idx → EReal) (b : Fin B) (p : Fin M) (q : Fin N) :
    ∑ k : d.contr.Idx, x (d.lhsIdx (ix3 b p q) k) * w (d.rhsIdx (ix3 b p q) k) = ∑ kk : Fin K, x (ix3 b p kk) * w (ix3 b kk q) := by
  rw [← Equiv.sum_comp (contrEquiv1 d K (b_contr_rank d hlc) (b_contr_size d hlc)).symm]
  refine Finset.sum_congr rfl fun kk _ => ?_
  have hk := contrEquiv1_symm_val d K (b_contr_rank d hlc) (b_contr_size d hlc) kk
  have el : d.lhsIdx (ix3 b p q) ((contrEquiv1 d K (b_contr_rank d hlc) (b_contr_size d hlc)).symm kk) = ix3 b p kk := by
    funext a; apply Fin.ext
    match a with
    | ⟨0, _⟩ => exact b_lhs_batch d hlb _ _
    | ⟨1, _⟩ => exact b_lhs_row d hln hlb _ _
    | ⟨2, _⟩ => exact (b_lhs_col d hlc _ _).trans hk
  have er : d.rhsIdx (ix3 b p q) ((contrEquiv1 d K (b_contr_rank d hlc) (b_contr_size d hlc)).symm kk) = ix3 b kk q := by
    funext a; apply Fin.ext
    match a with
    | ⟨0, _⟩ => exact b_rhs_batch d hrb _ _
    | ⟨1, _⟩ => exact (b_rhs_row d hrc _ _).trans hk
    | ⟨2, _⟩ => exact b_rhs_col d hln hrn hlb hrb _ _
  rw [el, er]

/-- The vector unit's batched product into a zero accumulator, read at (b, p, q). -/
theorem matmul_batched_zero_apply {φ₁ φ₂ : FTy} (prec : Option ContractPrecision)
    (hlc : d.lhsContracting = [2]) (hrc : d.rhsContracting = [1]) (hln : d.lhsNonContracting = [1])
    (hrn : d.rhsNonContracting = [2]) (hlb : d.lhsBatch = [0]) (hrb : d.rhsBatch = [0])
    (x : FVec Ideal ⟨3, ![B, M, K]⟩ φ₁) (w : FVec Ideal ⟨3, ![B, K, N]⟩ φ₂) (b : Fin B) (p : Fin M) (q : Fin N) :
    FloatOps.matmul d prec x w (constant ⟨3, ![B, M, N]⟩ .f32 0x00000000#32) (ix3 b p q) = ∑ kk : Fin K, x (ix3 b p kk) * w (ix3 b kk q) := by
  rw [Ideal.matmul_constant_zero_apply]
  exact sum_contr_batched d hlc hrc hln hrn hlb hrb x w b p q

/-- The host's batched general dot, read at (b, p, q). -/
theorem dotGeneral_batched_apply {φ₁ φ₂ : FTy} (prec : Option ContractPrecision) (sched : HostSchedule)
    (hlc : d.lhsContracting = [2]) (hrc : d.rhsContracting = [1]) (hln : d.lhsNonContracting = [1])
    (hrn : d.rhsNonContracting = [2]) (hlb : d.lhsBatch = [0]) (hrb : d.rhsBatch = [0])
    (x : FVec Ideal ⟨3, ![B, M, K]⟩ φ₁) (w : FVec Ideal ⟨3, ![B, K, N]⟩ φ₂) (b : Fin B) (p : Fin M) (q : Fin N) :
    FloatOps.dotGeneral d prec sched x w (ix3 b p q) = ∑ kk : Fin K, x (ix3 b p kk) * w (ix3 b kk q) := by
  rw [Ideal.dotGeneral_apply]
  exact sum_contr_batched d hlc hrc hln hrn hlb hrb x w b p q

end Batched

end Cert.LibDot

end
-- ==== Proof.KVal0.lean ====
/-
  The linear head's region: the result array after the run is the linear head of the arrays the region finds.
-/
import proofs.«121918_j46170898432201_1_alg».proof.Proof.Gen.KernelIdeal.Frame
import proofs.«121918_j46170898432201_1_alg».proof.Proof.Spec
import proofs.«121918_j46170898432201_1_alg».proof.Proof.LibDot
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- The body's value at (p, q): row p of the first block against row q of the second, plus the one-row block's entry q.
    The two changes of float format are the identity over the extended reals, the casts are to the same shape, and
    the row is broadcast down the rows. -/
private theorem pay0_apply (x0 : Vec Ideal S512x512 .f32) (x1 : Vec Ideal S2144x512 .f32) (x2 : Vec Ideal S1x2144 .f32)
    (p : Fin 512) (q : Fin 2144) :
    k0_pay1 (F := Ideal) x0 x1 x2 (ix2 p q) = (∑ k : Fin 512, x0 (ix2 p k) * x1 (ix2 q k)) + x2 (ix2 (0 : Fin 1) q) := by
  unfold k0_pay1
  simp only [matmul]
  rw [addf_apply, Cert.LibDot.matmul_nt_zero_apply _ none rfl rfl rfl rfl rfl rfl, broadcastTo_1b_ab_apply]
  simp only [truncf_apply, shapeCast_self]

/-- The windows' block indices over the grid: the activations' row block moves with the result's, which is the
    point's number; every other block index is zero. -/
private theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- An index of the result array is in point t's block iff each coordinate is in the block's range on its axis. -/
private theorem mem_blk0 (t : Fin cfg0.N) (i : S4096x2144.Idx) :
    i ∈ ((cfg0.win 3).blk t).view.set ↔ ∀ a : Fin 2, win0_3.index t a * S512x2144.size a ≤ (i a).val ∧ (i a).val < win0_3.index t a * S512x2144.size a + S512x2144.size a := by
  show i ∈ ((View.whole main_v3).slice (win0_3.rect t)).set ↔ _
  rw [View.set_slice_whole, Rect.mem_set_unit]
  exact Iff.rfl

/-- The eight row blocks tile the result array: row r lies in the block of point r / 512, and every point writes back. -/
private theorem cover0 (i : S4096x2144.Idx) : ∃ t : Fin cfg0.N, (cfg0.win 3).flush t = true ∧ i ∈ ((cfg0.win 3).blk t).view.set := by
  have hi0 : (i 0).val < 4096 := (i 0).isLt
  have hi1 : (i 1).val < 2144 := (i 1).isLt
  have hN : cfg0.N = 8 := N_0
  obtain ⟨t, ht⟩ : ∃ t : Fin cfg0.N, t.val = (i 0).val / 512 := ⟨⟨(i 0).val / 512, by omega⟩, rfl⟩
  obtain ⟨-, -, -, -, -, -, e31, e30⟩ := idx_facts0 t
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2144 ≤ (i 1).val ∧ (i 1).val < win0_3.index t (1 : Fin 2) * 2144 + 2144; omega

/-- The zero offset, as the constant function. -/
private theorem hz : (![0, 0] : Fin 2 → Nat) = fun _ => 0 := funext fun a => by fin_cases a <;> rfl

/-- One entry of the body's value against one entry of the head: when row p of the first block is row P of x, the
    second block is w, the third is b and Q is q, the body's value at (p, q) is the head of x, w, b at (P, Q). -/
private theorem point0 (x : FVec Ideal ⟨2, ![4096, 512]⟩ .f32) (w : FVec Ideal ⟨2, ![2144, 512]⟩ .f32) (b : FVec Ideal ⟨2, ![1, 2144]⟩ .f32)
    (x0 : Vec Ideal S512x512 .f32) (x1 : Vec Ideal S2144x512 .f32) (x2 : Vec Ideal S1x2144 .f32)
    (p : Fin 512) (q : Fin 2144) (P : Fin 4096) (Q : Fin 2144) (hQ : Q = q)
    (h0 : ∀ k : Fin 512, x0 (ix2 p k) = x (ix2 P k)) (h1 : ∀ y, x1 y = w y) (h2 : ∀ y, x2 y = b y) :
    k0_pay1 (F := Ideal) x0 x1 x2 (ix2 p q) = Cert.Spec.linRowAt x w b P Q := by
  subst hQ
  rw [pay0_apply]
  unfold Cert.Spec.linRowAt
  rw [h2]
  congr 1
  exact Finset.sum_congr rfl fun k _ => by rw [h0 k, h1]

variable (V : (c : Dev nD) → (b : Ref sig .tc) → Buf (Elt Ideal) ((c : Thread nD τ).loc b))

/-- What point t writes back is block t of the head of the arrays the region finds: the body's value at (p, q) of the
    block is the head at row 512 t + p and column q, since the activations' block holds rows 512 t … 512 t + 511 and
    the weights' and the bias row's blocks are those whole arrays. -/
private theorem flushed0_eq (c : Dev nD) (t : Fin cfg0.N) :
    (dat0 (F := Ideal) V c).flushed 3 t = ((cfg0.win 3).blk t).view.read (Elt Ideal) (Cert.Spec.linRow (V c main_arg0) (V c main_v0) (V c main_v2)) := by
  show (cfg0.win 3).cut (grid0.coords t) ((dat0 V c).after 3 t) = _
  rw [after0_3]
  unfold out0_3
  rw [View.canon_unit_zero hz]
  simp only [View.ld_unit_zero (S := S512x512) hz, View.ld_unit_zero (S := S2144x512) hz, View.ld_unit_zero (S := S1x2144) hz]
  funext j
  obtain ⟨e00, e01, e10, e11, e20, e21, e31, e30⟩ := idx_facts0 t
  have hj0 : (j 0).val < 512 := (j 0).isLt
  have hj1 : (j 1).val < 2144 := (j 1).isLt
  have hx : (win0 3).xinj (grid0.coords t) j = ix2 (⟨(j 0).val, hj0⟩ : Fin 512) (⟨(j 1).val, hj1⟩ : Fin 2144) := by
    funext a
    match a with
    | ⟨0, _⟩ => rfl
    | ⟨1, _⟩ => rfl
  show k0_pay1 (F := Ideal) (iblk0 V c 0 t) (iblk0 V c 1 t) (iblk0 V c 2 t) ((win0 3).xinj (grid0.coords t) j)
    = Cert.Spec.linRowAt (V c main_arg0) (V c main_v0) (V c main_v2) (((cfg0.win 3).blk t).view.emb j 0) (((cfg0.win 3).blk t).view.emb j 1)
  rw [hx]
  refine point0 _ _ _ _ _ _ _ _ _ _ ?_ ?_ ?_ ?_
  · apply Fin.ext
    show win0_3.index t (1 : Fin 2) * 2144 + 1 * (j 1).val = (j 1).val
    rw [e31]; omega
  · intro k
    unfold iblk0
    rw [View.read_apply]
    show V c main_arg0 _ = V c main_arg0 _
    congr 1
    funext a
    apply Fin.ext
    match a with
    | ⟨0, _⟩ => show win0_0.index t (0 : Fin 2) * 512 + 1 * (j 0).val = win0_3.index t (0 : Fin 2) * 512 + 1 * (j 0).val; rw [e00]
    | ⟨1, _⟩ => show win0_0.index t (1 : Fin 2) * 512 + 1 * k.val = k.val; rw [e01]; omega
  · intro y
    unfold iblk0
    rw [View.read_apply]
    show V c main_v0 _ = V c main_v0 _
    congr 1
    funext a
    apply Fin.ext
    match a with
    | ⟨0, _⟩ => show win0_1.index t (0 : Fin 2) * 2144 + 1 * (y 0).val = (y 0).val; rw [e10]; omega
    | ⟨1, _⟩ => show win0_1.index t (1 : Fin 2) * 512 + 1 * (y 1).val = (y 1).val; rw [e11]; omega
  · intro y
    unfold iblk0
    rw [View.read_apply]
    show V c main_v2 _ = V c main_v2 _
    congr 1
    funext a
    apply Fin.ext
    match a with
    | ⟨0, _⟩ => show win0_2.index t (0 : Fin 2) * 1 + 1 * (y 0).val = (y 0).val; rw [e20]; omega
    | ⟨1, _⟩ => show win0_2.index t (1 : Fin 2) * 2144 + 1 * (y 1).val = (y 1).val; rw [e21]; omega

/-- After the eight grid points the result array holds, at (p, q), row p of the activations against row q of the
    weights plus the bias row's entry q: each point writes 512 rows of it, and the eight row blocks tile the array. -/
theorem final0 (c : Dev nD) :
    (dat0 (F := Ideal) V c).arrAt 3 cfg0.N = Cert.Spec.linRow (V c main_arg0) (V c main_v0) (V c main_v2) :=
  (dat0 V c).arrAt_eq_of_cover 3 _ (fun t _ => flushed0_eq V c t) cover0

end Cert.KernelIdeal.Hand

end
-- ==== Proof.KVal1.lean ====
/-
  The sampling region: the result array after the run is the sample of the arrays the region finds.

  Each of the thirty-two grid points works on 128 consecutive batch entries: it reads rows 128 t … 128 t + 127 of the
  mean, of the scale matrices and of the noise, and writes the same rows of the result. Its payload, read at an entry
  (b, i, t) of the block, is the logistic function of the block's mean at (b, i) plus the inner product of row i of the
  block's scale matrix b with column t of the block's noise b. Read through the blocks' places in the arrays this is the
  sample at batch entry 128 t + b, and the thirty-two blocks tile the result array.
-/
import proofs.«121918_j46170898432201_1_alg».proof.Proof.Gen.KernelIdeal.Frame
import proofs.«121918_j46170898432201_1_alg».proof.Proof.Spec
import proofs.«121918_j46170898432201_1_alg».proof.Proof.LibDot
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## The payload at an entry -/

/-- The mean block, given a unit last axis and repeated along it, reads the mean at (b, i) whatever the last
    coordinate: position (b, i, 0) of the [128 × 64 × 1] array is position (b, i) of the [128 × 64] one. -/
private theorem bcast1 (x0 : Vec Ideal S128x64 .f32) (b : Fin 128) (i : Fin 64) (t : Fin 100) :
    broadcastTo S128x64x100 (shapeCast S128x64x1 x0 shapeCasts_S128x64_S128x64x1) broadcasts_S128x64x1_S128x64x100 (ix3 b i t)
      = x0 (ix2 b i) := by
  rw [broadcastTo_apply _ _ (ix3 b i t) (ix3 b i (0 : Fin 1))]
  · rw [shapeCast_apply _ _ (ix3 b i (0 : Fin 1)) (ix2 b i)]
    rw [Shape.rowMajor_val_two, Shape.rowMajor_val_three]
    show b.val * 64 + i.val = (b.val * 64 + i.val) * 1 + 0
    omega
  · intro a
    match a with
    | ⟨0, _⟩ => rfl
    | ⟨1, _⟩ => rfl
    | ⟨2, _⟩ => rfl

/-- The payload at (b, i, t): the logistic function of the mean at (b, i) plus the sum over j of scale (b, i, j) times
    noise (b, j, t). Over the extended reals the two roundings to the narrower format are the identity and the product
    into a zero accumulator is the bare sum. -/
private theorem pay1_apply (x0 : Vec Ideal S128x64 .f32) (x1 : Vec Ideal S128x64x64 .f32) (x2 : Vec Ideal S128x64x100 .f32)
    (b : Fin 128) (i : Fin 64) (t : Fin 100) :
    k1_pay1 x0 x1 x2 (ix3 b i t) = Ideal.logistic (x0 (ix2 b i) + ∑ j : Fin 64, x1 (ix3 b i j) * x2 (ix3 b j t)) := by
  unfold k1_pay1
  simp only [shapeCast_self]
  show Ideal.logistic (broadcastTo S128x64x100 (shapeCast S128x64x1 x0 shapeCasts_S128x64_S128x64x1) broadcasts_S128x64x1_S128x64x100 (ix3 b i t)
      + FloatOps.matmul (F := Ideal) dot_S128x64x64_S128x64x100_S128x64x100_2_1_1_2_0_0 none (truncf .bf16 x1 bitsLt_bf16_f32) (truncf .bf16 x2 bitsLt_bf16_f32)
          (constant S128x64x100 .f32 0x00000000#32) (ix3 b i t)) = _
  rw [bcast1, Cert.LibDot.matmul_batched_zero_apply _ none rfl rfl rfl rfl rfl rfl]
  rfl

/-! ## Where a point's blocks sit in the arrays -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- The index maps over the grid: at point t every window is on block t of its batch axis and on block 0 of its other
    axes; and t is at most 31. -/
private theorem idx_facts1 : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ t.val ≤ 31 :=
  (by decide +kernel : ∀ t : Fin grid1.N, _)

/-- Batch entry p of point t's block is batch entry 128 t + p of the array. -/
private def row1 (t : Fin cfg1.N) (p : Fin 128) : Fin 4096 :=
  ⟨t.val * 128 + p.val, by have h := (idx_facts1 t).2.2.2.2.2.2.2.2.2.2.2; have := p.isLt; omega⟩

/-- Entry (p, q) of the mean's block at point t is entry (128 t + p, q) of the mean: on each axis the array's coordinate
    is the block's index times the block's extent plus the coordinate inside the block. -/
private theorem emb1_0 (t : Fin cfg1.N) (p : Fin 128) (q : Fin 64) :
    ((cfg1.win 0).blk t).view.emb (ix2 p q) = ix2 (row1 t p) q := by
  obtain ⟨e0, e1, -⟩ := idx_facts1 t
  funext a; apply Fin.ext
  match a with
  | ⟨0, _⟩ => show win1_0.index t (0 : Fin 2) * 128 + 1 * p.val = t.val * 128 + p.val; omega
  | ⟨1, _⟩ => show win1_0.index t (1 : Fin 2) * 64 + 1 * q.val = q.val; omega

/-- The same for the scale matrices' block. -/
private theorem emb1_1 (t : Fin cfg1.N) (p : Fin 128) (q : Fin 64) (r : Fin 64) :
    ((cfg1.win 1).blk t).view.emb (ix3 p q r) = ix3 (row1 t p) q r := by
  obtain ⟨-, -, e0, e1, e2, -⟩ := idx_facts1 t
  funext a; apply Fin.ext
  match a with
  | ⟨0, _⟩ => show win1_1.index t (0 : Fin 3) * 128 + 1 * p.val = t.val * 128 + p.val; omega
  | ⟨1, _⟩ => show win1_1.index t (1 : Fin 3) * 64 + 1 * q.val = q.val; omega
  | ⟨2, _⟩ => show win1_1.index t (2 : Fin 3) * 64 + 1 * r.val = r.val; omega

/-- The same for the noise's block. -/
private theorem emb1_2 (t : Fin cfg1.N) (p : Fin 128) (q : Fin 64) (r : Fin 100) :
    ((cfg1.win 2).blk t).view.emb (ix3 p q r) = ix3 (row1 t p) q r := by
  obtain ⟨-, -, -, -, -, e0, e1, e2, -⟩ := idx_facts1 t
  funext a; apply Fin.ext
  match a with
  | ⟨0, _⟩ => show win1_2.index t (0 : Fin 3) * 128 + 1 * p.val = t.val * 128 + p.val; omega
  | ⟨1, _⟩ => show win1_2.index t (1 : Fin 3) * 64 + 1 * q.val = q.val; omega
  | ⟨2, _⟩ => show win1_2.index t (2 : Fin 3) * 100 + 1 * r.val = r.val; omega

/-- The same for the result's block. -/
private theorem emb1_3 (t : Fin cfg1.N) (p : Fin 128) (q : Fin 64) (r : Fin 100) :
    ((cfg1.win 3).blk t).view.emb (ix3 p q r) = ix3 (row1 t p) q r := by
  obtain ⟨-, -, -, -, -, -, -, -, e0, e1, e2, -⟩ := idx_facts1 t
  funext a; apply Fin.ext
  match a with
  | ⟨0, _⟩ => show win1_3.index t (0 : Fin 3) * 128 + 1 * p.val = t.val * 128 + p.val; omega
  | ⟨1, _⟩ => show win1_3.index t (1 : Fin 3) * 64 + 1 * q.val = q.val; omega
  | ⟨2, _⟩ => show win1_3.index t (2 : Fin 3) * 100 + 1 * r.val = r.val; omega

/-- The mean's block at point t, read at (p, q), is the mean the region finds at (128 t + p, q). -/
private theorem iblk1_0_apply (c : Dev nD) (t : Fin cfg1.N) (p : Fin 128) (q : Fin 64) :
    iblk1 V c 0 t (ix2 p q) = V c main_v4 (ix2 (row1 t p) q) := by
  show V c main_v4 (((cfg1.win 0).blk t).view.emb (ix2 p q)) = _
  rw [emb1_0]

/-- The scale matrices' block at point t, read at (p, q, r), is the array the region finds at (128 t + p, q, r). -/
private theorem iblk1_1_apply (c : Dev nD) (t : Fin cfg1.N) (p : Fin 128) (q : Fin 64) (r : Fin 64) :
    iblk1 V c 1 t (ix3 p q r) = V c main_v34 (ix3 (row1 t p) q r) := by
  show V c main_v34 (((cfg1.win 1).blk t).view.emb (ix3 p q r)) = _
  rw [emb1_1]

/-- The noise's block at point t, read at (p, q, r), is the noise the region finds at (128 t + p, q, r). -/
private theorem iblk1_2_apply (c : Dev nD) (t : Fin cfg1.N) (p : Fin 128) (q : Fin 64) (r : Fin 100) :
    iblk1 V c 2 t (ix3 p q r) = V c main_arg1 (ix3 (row1 t p) q r) := by
  show V c main_arg1 (((cfg1.win 2).blk t).view.emb (ix3 p q r)) = _
  rw [emb1_2]

/-! ## What a point writes back, and the tiling -/

/-- What point t writes back is block t of the sample of the arrays the region finds: the body's one store covers the
    whole staging buffer with the payload of the three input blocks, whose entry (p, q, r) is the logistic function of
    mean (128 t + p, q) plus the sum over j of scale (128 t + p, q, j) times noise (128 t + p, j, r) — the sample at the
    place (128 t + p, q, r) where the block's entry sits in the result array. -/
private theorem flushed1_eq (c : Dev nD) (t : Fin cfg1.N) :
    (dat1 (F := Ideal) V c).flushed 3 t
      = ((cfg1.win 3).blk t).view.read (Elt Ideal) (Cert.Spec.samp (V c main_v4) (V c main_v34) (V c main_arg1)) := by
  show (cfg1.win 3).cut (grid1.coords t) ((dat1 V c).after 3 t) = _
  rw [after1_3]
  unfold out1_3
  rw [View.canon_unit_zero hz3]
  simp only [View.ld_unit_zero (S := S128x64) hz2, View.ld_unit_zero (S := S128x64x64) hz3, View.ld_unit_zero (S := S128x64x100) hz3]
  funext j
  obtain ⟨p, q, r, rfl⟩ : ∃ (p : Fin 128) (q : Fin 64) (r : Fin 100), j = ix3 p q r := ⟨j 0, j 1, j 2, eq_ix3 j⟩
  show k1_pay1 (iblk1 V c 0 t) (iblk1 V c 1 t) (iblk1 V c 2 t) (ix3 p q r)
    = Cert.Spec.samp (V c main_v4) (V c main_v34) (V c main_arg1) (((cfg1.win 3).blk t).view.emb (ix3 p q r))
  rw [pay1_apply, emb1_3, Cert.Spec.samp_apply]
  unfold Cert.Spec.sampAt
  rw [iblk1_0_apply]
  simp only [iblk1_1_apply, iblk1_2_apply]

/-- An index of the result array is in point t's block iff each coordinate is in the block's range on its axis. -/
private theorem mem_blk1 (t : Fin cfg1.N) (i : S4096x64x100.Idx) :
    i ∈ ((cfg1.win 3).blk t).view.set ↔ ∀ a : Fin 3, win1_3.index t a * S128x64x100.size a ≤ (i a).val
      ∧ (i a).val < win1_3.index t a * S128x64x100.size a + S128x64x100.size a := by
  show i ∈ ((View.whole main_v35).slice (win1_3.rect t)).set ↔ _
  rw [View.set_slice_whole, Rect.mem_set_unit]
  exact Iff.rfl

/-- The blocks tile the result array: the index (n, q, r) is in the block of the point n / 128, which writes back. -/
private theorem cover1 (i : S4096x64x100.Idx) :
    ∃ t : Fin cfg1.N, (cfg1.win 3).flush t = true ∧ i ∈ ((cfg1.win 3).blk t).view.set := by
  have h0 : (i 0).val < 4096 := (i 0).isLt
  have h1 : (i 1).val < 64 := (i 1).isLt
  have h2 : (i 2).val < 100 := (i 2).isLt
  let t : Fin cfg1.N := ⟨(i 0).val / 128, by show _ < grid1.N; rw [N_1]; omega⟩
  refine ⟨t, flush1_3 t, ?_⟩
  obtain ⟨-, -, -, -, -, -, -, -, e0, e1, e2, -⟩ := idx_facts1 t
  have ht : t.val = (i 0).val / 128 := rfl
  rw [mem_blk1]
  intro a
  match a with
  | ⟨0, _⟩ => show win1_3.index t (0 : Fin 3) * 128 ≤ (i 0).val ∧ (i 0).val < win1_3.index t (0 : Fin 3) * 128 + 128; omega
  | ⟨1, _⟩ => show win1_3.index t (1 : Fin 3) * 64 ≤ (i 1).val ∧ (i 1).val < win1_3.index t (1 : Fin 3) * 64 + 64; omega
  | ⟨2, _⟩ => show win1_3.index t (2 : Fin 3) * 100 ≤ (i 2).val ∧ (i 2).val < win1_3.index t (2 : Fin 3) * 100 + 100; omega

/-- After the thirty-two grid points the result array holds, at (b, i, t), the logistic function of the mean at (b, i)
    plus row i of batch entry b's scale matrix against column t of its noise: each point writes 128 batch entries,
    and the thirty-two blocks tile the array. -/
theorem final1 (c : Dev nD) :
    (dat1 (F := Ideal) V c).arrAt 3 cfg1.N = Cert.Spec.samp (V c main_v4) (V c main_v34) (V c main_arg1) := by
  exact (dat1 (F := Ideal) V c).arrAt_eq_of_cover 3 _ (fun t _ => flushed1_eq V c t) cover1

end Cert.KernelIdeal.Hand

end
-- ==== Proof.KChain.lean ====
/-
  The scale matrix as a function of the sigma head's output: entry k of that output goes to position (row k, column k)
  of the lower triangle (the two literal tables list the rows and the columns), and the diagonal is then overwritten
  with softplus of the diagonal entries plus 1e-6.
-/
import proofs.«121918_j46170898432201_1_alg».proof.Proof.Gen.KernelIdeal

noncomputable section

namespace Cert.KernelIdeal.Hand

open Cert.KernelIdeal Cert.KernelIdeal.Gen Idealize.ShloMosaic

variable {F : FTy → Type} [FloatOps F]

/-- The (row, column) pairs of the lower triangle, in the order the sigma head lists its entries. -/
def trilPairs : IVec S2080x2 32 :=
  concatenate S2080x2 1
    [⟨S2080x1, broadcastInDim S2080x1 ![0] bcast_S2080_S2080x1_0
        (select (constantI S2080 1 0#1) (addi (fun i => lit0 (S2080.rowMajor i)) (broadcastInDim S2080 ![] bcast_S_S2080 (constantI S_ 32 64#32))) (fun i => lit0 (S2080.rowMajor i)))⟩,
     ⟨S2080x1, broadcastInDim S2080x1 ![0] bcast_S2080_S2080x1_0
        (select (constantI S2080 1 0#1) (addi (fun i => lit1 (S2080.rowMajor i)) (broadcastInDim S2080 ![] bcast_S_S2080 (constantI S_ 32 64#32))) (fun i => lit1 (S2080.rowMajor i)))⟩]
    concatenates_S2080x1_S2080x1_S2080x2_d1

/-- The positions of the diagonal entries in the sigma head's output. -/
def diagPos : IVec S64x1 32 :=
  broadcastInDim S64x1 ![0] bcast_S64_S64x1_0
    (select (constantI S64 1 0#1) (addi (fun i => lit2 (S64.rowMajor i)) (broadcastInDim S64 ![] bcast_S_S64 (constantI S_ 32 2080#32))) (fun i => lit2 (S64.rowMajor i)))

/-- The (i, i) pairs of the diagonal. -/
def diagPairs : IVec S64x2 32 :=
  concatenate S64x2 1
    [⟨S64x1, broadcastInDim S64x1 ![0] bcast_S64_S64x1_0
        (select (constantI S64 1 0#1) (addi (fun i => lit3 (S64.rowMajor i)) (broadcastInDim S64 ![] bcast_S_S64 (constantI S_ 32 64#32))) (fun i => lit3 (S64.rowMajor i)))⟩,
     ⟨S64x1, broadcastInDim S64x1 ![0] bcast_S64_S64x1_0
        (select (constantI S64 1 0#1) (addi (fun i => lit3 (S64.rowMajor i)) (broadcastInDim S64 ![] bcast_S_S64 (constantI S_ 32 64#32))) (fun i => lit3 (S64.rowMajor i)))⟩]
    concatenates_S64x1_S64x1_S64x2_d1

/-- softplus, as jax spells it: max(a, 0) + log1p(exp(−|a − 0|)), with a + 0 where a − 0 is not itself. -/
def softplus (a : FVec F S4096x64 .f32) : FVec F S4096x64 .f32 :=
  select (cmpf .une (subf a (broadcastInDim S4096x64 ![] bcast_S_S4096x64 (constant (F := F) S_ .f32 0x00000000#32)))
      (subf a (broadcastInDim S4096x64 ![] bcast_S_S4096x64 (constant (F := F) S_ .f32 0x00000000#32))))
    (addf a (broadcastInDim S4096x64 ![] bcast_S_S4096x64 (constant (F := F) S_ .f32 0x00000000#32)))
    (addf (maximumf a (broadcastInDim S4096x64 ![] bcast_S_S4096x64 (constant (F := F) S_ .f32 0x00000000#32)))
      (Host.log1p (Host.exp (Host.negf (Host.absf (subf a (broadcastInDim S4096x64 ![] bcast_S_S4096x64 (constant (F := F) S_ .f32 0x00000000#32))))))))

/-- The scale matrix of every batch entry from the sigma head's output. -/
def scaleOf (csig : FVec F S4096x2080 .f32) : FVec F S4096x64x64 .f32 :=
  Host.scatter scatter_S4096x64x64_S64x2_S4096x64_0_12_12_1 (fun _ b => b)
    (Host.scatter scatter_S4096x64x64_S2080x2_S4096x2080_0_12_12_1 (fun _ b => b)
      (broadcastInDim S4096x64x64 ![] bcast_S_S4096x64x64 (constant (F := F) S_ .f32 0x00000000#32)) trilPairs csig)
    diagPairs
    (addf (softplus (Host.gather gather_S4096x2080_S64x1_S4096x64_0_1_n_n_1_1_40961 csig diagPos))
      (broadcastInDim S4096x64 ![] bcast_S_S4096x64 (constant (F := F) S_ .f32 0x358637BD#32)))

end Cert.KernelIdeal.Hand

end
-- ==== Proof.KHost.lean ====
/-
  The host operations around the two regions, read: what each region finds in the arrays it reads.
-/
import proofs.«121918_j46170898432201_1_alg».proof.Proof.Gen.KernelIdeal.Frame
import proofs.«121918_j46170898432201_1_alg».proof.Proof.KChain
import Idealize.ShloMosaic.Lib.StableHlo.Run

noncomputable section

open Idealize.ShloMosaic Idealize.ShloMosaic.TcCoe Idealize.SL.Sem

namespace Cert.KernelIdeal.Hand

open Cert.KernelIdeal Cert.KernelIdeal.Gen

variable {F : FTy → Type} [FloatOps F]
variable (m : (ℓ : Loc nD τ sig) → Buf (Elt F) ℓ) (ρ : Dev nD → PrngReg)

/-- The literal tables and masks are written before the first region and are none of its arrays. -/
theorem W2_c (c : Dev nD) : W2 m ρ c (Proc.devRef .tc main_c) = fun i => lit0 (S2080.rowMajor i) := by
  rw [W2_of_ne m ρ c main_c (by decide)]
  show StableHlo.after hostOps0 (W0 m ρ c) (Proc.devRef .tc main_c) = _
  after_results
  rfl
theorem W2_c_0 (c : Dev nD) : W2 m ρ c (Proc.devRef .tc main_c_0) = constantI S2080 1 0#1 := by
  rw [W2_of_ne m ρ c main_c_0 (by decide)]
  show StableHlo.after hostOps0 (W0 m ρ c) (Proc.devRef .tc main_c_0) = _
  after_results
theorem W2_c_1 (c : Dev nD) : W2 m ρ c (Proc.devRef .tc main_c_1) = fun i => lit1 (S2080.rowMajor i) := by
  rw [W2_of_ne m ρ c main_c_1 (by decide)]
  show StableHlo.after hostOps0 (W0 m ρ c) (Proc.devRef .tc main_c_1) = _
  after_results
  rfl
theorem W2_c_2 (c : Dev nD) : W2 m ρ c (Proc.devRef .tc main_c_2) = constantI S2080 1 0#1 := by
  rw [W2_of_ne m ρ c main_c_2 (by decide)]
  show StableHlo.after hostOps0 (W0 m ρ c) (Proc.devRef .tc main_c_2) = _
  after_results
theorem W2_c_3 (c : Dev nD) : W2 m ρ c (Proc.devRef .tc main_c_3) = fun i => lit2 (S64.rowMajor i) := by
  rw [W2_of_ne m ρ c main_c_3 (by decide)]
  show StableHlo.after hostOps0 (W0 m ρ c) (Proc.devRef .tc main_c_3) = _
  after_results
  rfl
theorem W2_c_4 (c : Dev nD) : W2 m ρ c (Proc.devRef .tc main_c_4) = constantI S64 1 0#1 := by
  rw [W2_of_ne m ρ c main_c_4 (by decide)]
  show StableHlo.after hostOps0 (W0 m ρ c) (Proc.devRef .tc main_c_4) = _
  after_results
theorem W2_c_5 (c : Dev nD) : W2 m ρ c (Proc.devRef .tc main_c_5) = fun i => lit3 (S64.rowMajor i) := by
  rw [W2_of_ne m ρ c main_c_5 (by decide)]
  show StableHlo.after hostOps0 (W0 m ρ c) (Proc.devRef .tc main_c_5) = _
  after_results
  rfl
theorem W2_c_6 (c : Dev nD) : W2 m ρ c (Proc.devRef .tc main_c_6) = constantI S64 1 0#1 := by
  rw [W2_of_ne m ρ c main_c_6 (by decide)]
  show StableHlo.after hostOps0 (W0 m ρ c) (Proc.devRef .tc main_c_6) = _
  after_results
theorem W2_c_7 (c : Dev nD) : W2 m ρ c (Proc.devRef .tc main_c_7) = constantI S64 1 0#1 := by
  rw [W2_of_ne m ρ c main_c_7 (by decide)]
  show StableHlo.after hostOps0 (W0 m ρ c) (Proc.devRef .tc main_c_7) = _
  after_results

section Steps

variable (V : Valuation τ sig (Elt F))

/-- The first stretch after the first region: the sigma slice scattered over the lower triangle of a zero matrix, -/
theorem ops1_v16 (hc : V (Proc.devRef .tc main_c) = fun i => lit0 (S2080.rowMajor i))
    (hc0 : V (Proc.devRef .tc main_c_0) = constantI S2080 1 0#1)
    (hc1 : V (Proc.devRef .tc main_c_1) = fun i => lit1 (S2080.rowMajor i))
    (hc2 : V (Proc.devRef .tc main_c_2) = constantI S2080 1 0#1) :
    StableHlo.after hostOps1 V (Proc.devRef .tc main_v16)
      = Host.scatter scatter_S4096x64x64_S2080x2_S4096x2080_0_12_12_1 (fun _ b => b)
          (broadcastInDim S4096x64x64 ![] bcast_S_S4096x64x64 (constant (F := F) S_ .f32 0x00000000#32)) trilPairs
          (extractStridedSlice S4096x2080 ![0, 64] (V (Proc.devRef .tc main_v3)) slices_S4096x2144_S4096x2080_0_64) := by
  after_results_simp
  generalize hx : HloOp.result _ _ (Proc.devRef .tc main_v13) = x
  generalize hy : HloOp.result _ _ (Proc.devRef .tc main_v14) = y
  revert hx hy
  after_results_simp
  rintro rfl rfl
  rw [hc, hc0, hc1, hc2]
  rfl

/-- and its diagonal entries gathered. -/
theorem ops1_v21 (hc3 : V (Proc.devRef .tc main_c_3) = fun i => lit2 (S64.rowMajor i))
    (hc4 : V (Proc.devRef .tc main_c_4) = constantI S64 1 0#1) :
    StableHlo.after hostOps1 V (Proc.devRef .tc main_v21)
      = Host.gather gather_S4096x2080_S64x1_S4096x64_0_1_n_n_1_1_40961
          (extractStridedSlice S4096x2080 ![0, 64] (V (Proc.devRef .tc main_v3)) slices_S4096x2144_S4096x2080_0_64) diagPos := by
  after_results_simp
  rw [hc3, hc4]
  rfl

/-- That stretch writes neither the diagonal's table nor its masks. -/
theorem ops1_c_5 : StableHlo.after hostOps1 V (Proc.devRef .tc main_c_5) = V (Proc.devRef .tc main_c_5) := by
  after_results_simp
theorem ops1_c_6 : StableHlo.after hostOps1 V (Proc.devRef .tc main_c_6) = V (Proc.devRef .tc main_c_6) := by
  after_results_simp
theorem ops1_c_7 : StableHlo.after hostOps1 V (Proc.devRef .tc main_c_7) = V (Proc.devRef .tc main_c_7) := by
  after_results_simp

/-- The called function is softplus of its argument; it writes its own values only. -/
theorem ops11_v22 : StableHlo.after hostOps1_1 V (Proc.devRef .tc main_v22) = softplus (V (Proc.devRef .tc main_v21)) := by
  after_results_simp
  rfl
theorem ops11_v16 : StableHlo.after hostOps1_1 V (Proc.devRef .tc main_v16) = V (Proc.devRef .tc main_v16) := by
  after_results_simp
theorem ops11_c_5 : StableHlo.after hostOps1_1 V (Proc.devRef .tc main_c_5) = V (Proc.devRef .tc main_c_5) := by
  after_results_simp
theorem ops11_c_6 : StableHlo.after hostOps1_1 V (Proc.devRef .tc main_c_6) = V (Proc.devRef .tc main_c_6) := by
  after_results_simp
theorem ops11_c_7 : StableHlo.after hostOps1_1 V (Proc.devRef .tc main_c_7) = V (Proc.devRef .tc main_c_7) := by
  after_results_simp

/-- The last stretch overwrites the diagonal of the scattered matrix with the softplus values plus 1e-6. -/
theorem ops12_v34 (hc5 : V (Proc.devRef .tc main_c_5) = fun i => lit3 (S64.rowMajor i))
    (hc6 : V (Proc.devRef .tc main_c_6) = constantI S64 1 0#1)
    (hc7 : V (Proc.devRef .tc main_c_7) = constantI S64 1 0#1) :
    StableHlo.after hostOps1_2 V (Proc.devRef .tc main_v34)
      = Host.scatter scatter_S4096x64x64_S64x2_S4096x64_0_12_12_1 (fun _ b => b) (V (Proc.devRef .tc main_v16)) diagPairs
          (addf (V (Proc.devRef .tc main_v22))
            (broadcastInDim S4096x64 ![] bcast_S_S4096x64 (constant (F := F) S_ .f32 0x358637BD#32))) := by
  after_results_simp
  generalize hx : HloOp.result _ _ (Proc.devRef .tc main_v31) = x
  generalize hy : HloOp.result _ _ (Proc.devRef .tc main_v32) = y
  revert hx hy
  after_results_simp
  rintro rfl rfl
  rw [hc5, hc6, hc7]
  rfl

end Steps

/-- The first region finds the activations as launched, -/
theorem V1_arg0 (c : Dev nD) : V1 m ρ c main_arg0 = m ((c : Thread nD τ).loc main_arg0) := by
  show StableHlo.after hostOps0 (W0 m ρ c) (Proc.devRef .tc main_arg0) = _
  after_results

/-- the two weight matrices stacked, mu's 64 rows first, -/
theorem V1_v0 (c : Dev nD) : V1 m ρ c main_v0
    = concatenate S2144x512 0 [⟨S64x512, m ((c : Thread nD τ).loc main_arg2)⟩, ⟨S2080x512, m ((c : Thread nD τ).loc main_arg4)⟩] concatenates_S64x512_S2080x512_S2144x512_d0 := by
  show StableHlo.after hostOps0 (W0 m ρ c) (Proc.devRef .tc main_v0) = _
  after_results

/-- and the two biases laid end to end as one row. -/
theorem V1_v2 (c : Dev nD) : V1 m ρ c main_v2
    = shapeCast S1x2144 (concatenate S2144 0 [⟨S64, m ((c : Thread nD τ).loc main_arg3)⟩, ⟨S2080, m ((c : Thread nD τ).loc main_arg5)⟩] concatenates_S64_S2080_S2144_d0) shapeCasts_S2144_S1x2144 := by
  show StableHlo.after hostOps0 (W0 m ρ c) (Proc.devRef .tc main_v2) = _
  after_results
  rfl

/-- The second region finds the first 64 columns of the first region's result as its mean, -/
theorem V5_v4 (c : Dev nD) : V5 m ρ c main_v4
    = extractStridedSlice S4096x64 ![0, 0] (W2 m ρ c (Proc.devRef .tc main_v3)) slices_S4096x2144_S4096x64_0_0 := by
  show StableHlo.after hostOps1_2 (StableHlo.after hostOps1_1 (StableHlo.after hostOps1 (W2 m ρ c))) (Proc.devRef .tc main_v4) = _
  after_results_simp

/-- the scale matrices built from the remaining 2080 columns, -/
theorem V5_v34 (c : Dev nD) : V5 m ρ c main_v34
    = scaleOf (extractStridedSlice S4096x2080 ![0, 64] (W2 m ρ c (Proc.devRef .tc main_v3)) slices_S4096x2144_S4096x2080_0_64) := by
  have h5 : W4 m ρ c (Proc.devRef .tc main_c_5) = fun i => lit3 (S64.rowMajor i) :=
    (ops11_c_5 (W3 m ρ c)).trans ((ops1_c_5 (W2 m ρ c)).trans (W2_c_5 m ρ c))
  have h6 : W4 m ρ c (Proc.devRef .tc main_c_6) = constantI S64 1 0#1 :=
    (ops11_c_6 (W3 m ρ c)).trans ((ops1_c_6 (W2 m ρ c)).trans (W2_c_6 m ρ c))
  have h7 : W4 m ρ c (Proc.devRef .tc main_c_7) = constantI S64 1 0#1 :=
    (ops11_c_7 (W3 m ρ c)).trans ((ops1_c_7 (W2 m ρ c)).trans (W2_c_7 m ρ c))
  have h16 : W4 m ρ c (Proc.devRef .tc main_v16) = _ := (ops11_v16 (W3 m ρ c)).trans
    (ops1_v16 (W2 m ρ c) (W2_c m ρ c) (W2_c_0 m ρ c) (W2_c_1 m ρ c) (W2_c_2 m ρ c))
  have h22 : W4 m ρ c (Proc.devRef .tc main_v22) = _ := (ops11_v22 (W3 m ρ c)).trans
    (congrArg softplus (ops1_v21 (W2 m ρ c) (W2_c_3 m ρ c) (W2_c_4 m ρ c)))
  exact (ops12_v34 (W4 m ρ c) h5 h6 h7).trans (by rw [h16, h22]; rfl)

/-- and the noise as launched. -/
theorem V5_arg1 (c : Dev nD) : V5 m ρ c main_arg1 = m ((c : Thread nD τ).loc main_arg1) := by
  show StableHlo.after hostOps1_2 (StableHlo.after hostOps1_1 (StableHlo.after hostOps1 (W2 m ρ c))) (Proc.devRef .tc main_arg1) = _
  after_results_simp
  rw [W2_of_ne m ρ c main_arg1 (by decide)]
  show StableHlo.after hostOps0 (W0 m ρ c) (Proc.devRef .tc main_arg1) = _
  after_results

end Cert.KernelIdeal.Hand

end
-- ==== Proof.KSplit.lean ====
/-
  The stacked linear head splits: its first 64 columns are the mu head, its remaining 2080 columns the sigma head.
-/
import proofs.«121918_j46170898432201_1_alg».proof.Proof.Gen.KernelIdeal
import proofs.«121918_j46170898432201_1_alg».proof.Proof.Spec
import Idealize.ShloMosaic.Lib.Pipeline.Value
import Idealize.ShloMosaic.Lib.ValueLayout
import Idealize.ShloMosaic.Lib.ValueIdx

noncomputable section

open Idealize.ShloMosaic Idealize.ShloMosaic.ValueIdx

namespace Cert.KernelIdeal.Hand

open Cert.KernelIdeal Cert.KernelIdeal.Gen

variable (x : FVec Ideal S4096x512 .f32) (wmu : FVec Ideal S64x512 .f32) (wsig : FVec Ideal S2080x512 .f32)
  (bmu : FVec Ideal S64 .f32) (bsig : FVec Ideal S2080 .f32)

/-! ## The stack read at one row, the bias row read at one entry -/

/-- Row q < 64 of the stacked weights is row q of mu's weights. -/
private theorem stack_row_mu (q : Fin 64) (k : Fin 512) :
    concatenate S2144x512 0 [⟨S64x512, wmu⟩, ⟨S2080x512, wsig⟩] concatenates_S64x512_S2080x512_S2144x512_d0
      (ix2 (⟨q.val, by omega⟩ : Fin 2144) k) = wmu (ix2 q k) :=
  concatenate_pair_apply_left (0 : Fin 2) wmu wsig concatenates_S64x512_S2080x512_S2144x512_d0
    (ix2 (⟨q.val, by omega⟩ : Fin 2144) k) rfl (ix2 q k) (fun b => by
      match b with
      | ⟨0, _⟩ => rfl
      | ⟨1, _⟩ => rfl)

/-- Row 64 + q of the stacked weights is row q of sigma's weights. -/
private theorem stack_row_sigma (q : Fin 2080) (k : Fin 512) :
    concatenate S2144x512 0 [⟨S64x512, wmu⟩, ⟨S2080x512, wsig⟩] concatenates_S64x512_S2080x512_S2144x512_d0
      (ix2 (⟨64 + q.val, by omega⟩ : Fin 2144) k) = wsig (ix2 q k) :=
  concatenate_pair_apply_right (0 : Fin 2) wmu wsig concatenates_S64x512_S2080x512_S2144x512_d0
    (ix2 (⟨64 + q.val, by omega⟩ : Fin 2144) k) rfl rfl (ix2 q k)
    (fun b hb => by
      match b, hb with
      | ⟨0, _⟩, hb => exact absurd rfl hb
      | ⟨1, _⟩, _ => rfl)
    (Nat.add_comm q.val 64)

/-- Entry q < 64 of the biases laid end to end, seen as a one-row matrix, is entry q of mu's bias. -/
private theorem bias_row_mu (q : Fin 64) :
    shapeCast S1x2144 (concatenate S2144 0 [⟨S64, bmu⟩, ⟨S2080, bsig⟩] concatenates_S64_S2080_S2144_d0) shapeCasts_S2144_S1x2144
      (ix2 (0 : Fin 1) (⟨q.val, by omega⟩ : Fin 2144)) = bmu (ix1 q) :=
  (shapeCast_a_1a_apply _ shapeCasts_S2144_S1x2144 (0 : Fin 1) (⟨q.val, by omega⟩ : Fin 2144)).trans
    (concatenate_pair_apply_left (0 : Fin 1) bmu bsig concatenates_S64_S2080_S2144_d0
      (ix1 (⟨q.val, by omega⟩ : Fin 2144)) rfl (ix1 q) (fun b => by
        match b with
        | ⟨0, _⟩ => rfl))

/-- Entry 64 + q of the biases laid end to end, seen as a one-row matrix, is entry q of sigma's bias. -/
private theorem bias_row_sigma (q : Fin 2080) :
    shapeCast S1x2144 (concatenate S2144 0 [⟨S64, bmu⟩, ⟨S2080, bsig⟩] concatenates_S64_S2080_S2144_d0) shapeCasts_S2144_S1x2144
      (ix2 (0 : Fin 1) (⟨64 + q.val, by omega⟩ : Fin 2144)) = bsig (ix1 q) :=
  (shapeCast_a_1a_apply _ shapeCasts_S2144_S1x2144 (0 : Fin 1) (⟨64 + q.val, by omega⟩ : Fin 2144)).trans
    (concatenate_pair_apply_right (0 : Fin 1) bmu bsig concatenates_S64_S2080_S2144_d0
      (ix1 (⟨64 + q.val, by omega⟩ : Fin 2144)) rfl rfl (ix1 q)
      (fun b hb => by
        match b, hb with
        | ⟨0, _⟩, hb => exact absurd rfl hb)
      (Nat.add_comm q.val 64))

/-! ## The two column blocks -/

/-- Columns 0 … 63 of the head over the stacked weights and the biases laid end to end are the mu head: row q < 64 of
    the stack is row q of mu's weights, entry q of the bias row is entry q of mu's bias. -/
theorem split_mu :
    extractStridedSlice S4096x64 ![0, 0]
      (Cert.Spec.linRow x (concatenate S2144x512 0 [⟨S64x512, wmu⟩, ⟨S2080x512, wsig⟩] concatenates_S64x512_S2080x512_S2144x512_d0)
        (shapeCast S1x2144 (concatenate S2144 0 [⟨S64, bmu⟩, ⟨S2080, bsig⟩] concatenates_S64_S2080_S2144_d0) shapeCasts_S2144_S1x2144))
      slices_S4096x2144_S4096x64_0_0
    = Cert.Spec.lin x wmu bmu := by
  funext j
  obtain ⟨p, q, rfl⟩ : ∃ (p : Fin 4096) (q : Fin 64), j = ix2 p q := ⟨j 0, j 1, eq_ix2 j⟩
  -- the slice reads the stacked head at column q
  refine (slice2_axis1_apply 0 _ slices_S4096x2144_S4096x64_0_0 p q (⟨q.val, by omega⟩ : Fin 2144)
    (Nat.zero_add q.val).symm).trans ?_
  rw [Cert.Spec.linRow_apply, Cert.Spec.lin_apply]
  unfold Cert.Spec.linRowAt Cert.Spec.linAt
  -- the inner product term by term, then the bias entry
  refine congrArg₂ (· + ·) (Finset.sum_congr rfl fun k _ => congrArg (x (ix2 p k) * ·) ?_) ?_
  · exact stack_row_mu wmu wsig q k
  · exact bias_row_mu bmu bsig q

/-- Columns 64 … 2143 are the sigma head: row 64 + q of the stack is row q of sigma's weights. -/
theorem split_sigma :
    extractStridedSlice S4096x2080 ![0, 64]
      (Cert.Spec.linRow x (concatenate S2144x512 0 [⟨S64x512, wmu⟩, ⟨S2080x512, wsig⟩] concatenates_S64x512_S2080x512_S2144x512_d0)
        (shapeCast S1x2144 (concatenate S2144 0 [⟨S64, bmu⟩, ⟨S2080, bsig⟩] concatenates_S64_S2080_S2144_d0) shapeCasts_S2144_S1x2144))
      slices_S4096x2144_S4096x2080_0_64
    = Cert.Spec.lin x wsig bsig := by
  funext j
  obtain ⟨p, q, rfl⟩ : ∃ (p : Fin 4096) (q : Fin 2080), j = ix2 p q := ⟨j 0, j 1, eq_ix2 j⟩
  -- the slice reads the stacked head at column 64 + q
  refine (slice2_axis1_apply 64 _ slices_S4096x2144_S4096x2080_0_64 p q (⟨64 + q.val, by omega⟩ : Fin 2144) rfl).trans ?_
  rw [Cert.Spec.linRow_apply, Cert.Spec.lin_apply]
  unfold Cert.Spec.linRowAt Cert.Spec.linAt
  -- the inner product term by term, then the bias entry
  refine congrArg₂ (· + ·) (Finset.sum_congr rfl fun k _ => congrArg (x (ix2 p k) * ·) ?_) ?_
  · exact stack_row_sigma wmu wsig q k
  · exact bias_row_sigma bmu bsig q

end Cert.KernelIdeal.Hand

end
-- ==== Proof.RChain.lean ====
/-
  The scale matrix as a function of the sigma head's output: entry k of that output goes to position (row k, column k)
  of the lower triangle (the two literal tables list the rows and the columns), and the diagonal is then overwritten
  with softplus of the diagonal entries plus 1e-6.
-/
import proofs.«121918_j46170898432201_1_alg».proof.Proof.Gen.ReferenceIdeal

noncomputable section

namespace Cert.ReferenceIdeal.Hand

open Cert.ReferenceIdeal Cert.ReferenceIdeal.Gen Idealize.ShloMosaic

variable {F : FTy → Type} [FloatOps F]

/-- The (row, column) pairs of the lower triangle, in the order the sigma head lists its entries. -/
def trilPairs : IVec S2080x2 32 :=
  concatenate S2080x2 1
    [⟨S2080x1, broadcastInDim S2080x1 ![0] bcast_S2080_S2080x1_0
        (select (constantI S2080 1 0#1) (addi (fun i => lit0 (S2080.rowMajor i)) (broadcastInDim S2080 ![] bcast_S_S2080 (constantI S_ 32 64#32))) (fun i => lit0 (S2080.rowMajor i)))⟩,
     ⟨S2080x1, broadcastInDim S2080x1 ![0] bcast_S2080_S2080x1_0
        (select (constantI S2080 1 0#1) (addi (fun i => lit1 (S2080.rowMajor i)) (broadcastInDim S2080 ![] bcast_S_S2080 (constantI S_ 32 64#32))) (fun i => lit1 (S2080.rowMajor i)))⟩]
    concatenates_S2080x1_S2080x1_S2080x2_d1

/-- The positions of the diagonal entries in the sigma head's output. -/
def diagPos : IVec S64x1 32 :=
  broadcastInDim S64x1 ![0] bcast_S64_S64x1_0
    (select (constantI S64 1 0#1) (addi (fun i => lit2 (S64.rowMajor i)) (broadcastInDim S64 ![] bcast_S_S64 (constantI S_ 32 2080#32))) (fun i => lit2 (S64.rowMajor i)))

/-- The (i, i) pairs of the diagonal. -/
def diagPairs : IVec S64x2 32 :=
  concatenate S64x2 1
    [⟨S64x1, broadcastInDim S64x1 ![0] bcast_S64_S64x1_0
        (select (constantI S64 1 0#1) (addi (fun i => lit3 (S64.rowMajor i)) (broadcastInDim S64 ![] bcast_S_S64 (constantI S_ 32 64#32))) (fun i => lit3 (S64.rowMajor i)))⟩,
     ⟨S64x1, broadcastInDim S64x1 ![0] bcast_S64_S64x1_0
        (select (constantI S64 1 0#1) (addi (fun i => lit3 (S64.rowMajor i)) (broadcastInDim S64 ![] bcast_S_S64 (constantI S_ 32 64#32))) (fun i => lit3 (S64.rowMajor i)))⟩]
    concatenates_S64x1_S64x1_S64x2_d1

/-- softplus, as jax spells it: max(a, 0) + log1p(exp(−|a − 0|)), with a + 0 where a − 0 is not itself. -/
def softplus (a : FVec F S4096x64 .f32) : FVec F S4096x64 .f32 :=
  select (cmpf .une (subf a (broadcastInDim S4096x64 ![] bcast_S_S4096x64 (constant (F := F) S_ .f32 0x00000000#32)))
      (subf a (broadcastInDim S4096x64 ![] bcast_S_S4096x64 (constant (F := F) S_ .f32 0x00000000#32))))
    (addf a (broadcastInDim S4096x64 ![] bcast_S_S4096x64 (constant (F := F) S_ .f32 0x00000000#32)))
    (addf (maximumf a (broadcastInDim S4096x64 ![] bcast_S_S4096x64 (constant (F := F) S_ .f32 0x00000000#32)))
      (Host.log1p (Host.exp (Host.negf (Host.absf (subf a (broadcastInDim S4096x64 ![] bcast_S_S4096x64 (constant (F := F) S_ .f32 0x00000000#32))))))))

/-- The scale matrix of every batch entry from the sigma head's output. -/
def scaleOf (csig : FVec F S4096x2080 .f32) : FVec F S4096x64x64 .f32 :=
  Host.scatter scatter_S4096x64x64_S64x2_S4096x64_0_12_12_1 (fun _ b => b)
    (Host.scatter scatter_S4096x64x64_S2080x2_S4096x2080_0_12_12_1 (fun _ b => b)
      (broadcastInDim S4096x64x64 ![] bcast_S_S4096x64x64 (constant (F := F) S_ .f32 0x00000000#32)) trilPairs csig)
    diagPairs
    (addf (softplus (Host.gather gather_S4096x2080_S64x1_S4096x64_0_1_n_n_1_1_40961 csig diagPos))
      (broadcastInDim S4096x64 ![] bcast_S_S4096x64 (constant (F := F) S_ .f32 0x358637BD#32)))

/-- The mu head on the host: x against the transposed weights, plus the bias broadcast down the rows. -/
def headMu (x : FVec F S4096x512 .f32) (wmu : FVec F S64x512 .f32) (bmu : FVec F S64 .f32) : FVec F S4096x64 .f32 :=
  addf (Host.dotGeneral dot_S4096x512_S512x64_S4096x64_1_0_0_1_n_n none x (transpose S512x64 [1, 0] wmu transposes_S64x512_S512x64_1_0))
    (broadcastInDim S4096x64 ![0, 1] bcast_S1x64_S4096x64_0_1 (broadcastInDim S1x64 ![1] bcast_S64_S1x64_1 bmu))

/-- The sigma head on the host. -/
def headSigma (x : FVec F S4096x512 .f32) (wsig : FVec F S2080x512 .f32) (bsig : FVec F S2080 .f32) : FVec F S4096x2080 .f32 :=
  addf (Host.dotGeneral dot_S4096x512_S512x2080_S4096x2080_1_0_0_1_n_n none x (transpose S512x2080 [1, 0] wsig transposes_S2080x512_S512x2080_1_0))
    (broadcastInDim S4096x2080 ![0, 1] bcast_S1x2080_S4096x2080_0_1 (broadcastInDim S1x2080 ![1] bcast_S2080_S1x2080_1 bsig))

/-- The reference's result as one term of its six arguments: 1 / (1 + exp(−(mu + L · eps))). -/
def refOut (x : FVec F S4096x512 .f32) (eps : FVec F S4096x64x100 .f32) (wmu : FVec F S64x512 .f32) (bmu : FVec F S64 .f32)
    (wsig : FVec F S2080x512 .f32) (bsig : FVec F S2080 .f32) : FVec F S4096x64x100 .f32 :=
  Host.divf (broadcastInDim S4096x64x100 ![] bcast_S_S4096x64x100 (constant (F := F) S_ .f32 0x3F800000#32))
    (addf (broadcastInDim S4096x64x100 ![] bcast_S_S4096x64x100 (constant (F := F) S_ .f32 0x3F800000#32))
      (Host.exp (Host.negf (addf
        (broadcastInDim S4096x64x100 ![0, 1, 2] bcast_S4096x64x1_S4096x64x100_0_1_2
          (broadcastInDim S4096x64x1 ![0, 1] bcast_S4096x64_S4096x64x1_0_1 (headMu x wmu bmu)))
        (Host.dotGeneral dot_S4096x64x64_S4096x64x100_S4096x64x100_2_1_1_2_0_0 none (scaleOf (headSigma x wsig bsig)) eps)))))

end Cert.ReferenceIdeal.Hand

end
-- ==== Proof.Chain.lean ====
/-
  The two programs build the scale matrix by the same operations over the same literal tables: one function.
-/
import proofs.«121918_j46170898432201_1_alg».proof.Proof.KChain
import proofs.«121918_j46170898432201_1_alg».proof.Proof.RChain

noncomputable section

open Idealize.ShloMosaic

namespace Cert.Chain

variable {F : FTy → Type} [FloatOps F]

/-! ## The literal tables

Each program carries its own copy of the four integer tables; the copies hold the same word at every index,
which is a finite check over the index range. -/

/-- The row table of the lower triangle: the same 2080 words in both programs. -/
theorem lit0_eq : Cert.KernelIdeal.lit0 = Cert.ReferenceIdeal.lit0 := by
  funext i
  have h : ∀ i : Fin 2080, Cert.KernelIdeal.lit0 i = Cert.ReferenceIdeal.lit0 i := by decide +kernel
  exact h i

/-- The column table of the lower triangle: the same 2080 words in both programs. -/
theorem lit1_eq : Cert.KernelIdeal.lit1 = Cert.ReferenceIdeal.lit1 := by
  funext i
  have h : ∀ i : Fin 2080, Cert.KernelIdeal.lit1 i = Cert.ReferenceIdeal.lit1 i := by decide +kernel
  exact h i

/-- The positions of the 64 diagonal entries: the same words in both programs. -/
theorem lit2_eq : Cert.KernelIdeal.lit2 = Cert.ReferenceIdeal.lit2 := by
  funext i
  have h : ∀ i : Fin 64, Cert.KernelIdeal.lit2 i = Cert.ReferenceIdeal.lit2 i := by decide +kernel
  exact h i

/-- The table 0, 1, …, 63: the same words in both programs. -/
theorem lit3_eq : Cert.KernelIdeal.lit3 = Cert.ReferenceIdeal.lit3 := by
  funext i
  have h : ∀ i : Fin 64, Cert.KernelIdeal.lit3 i = Cert.ReferenceIdeal.lit3 i := by decide +kernel
  exact h i

/-! ## The dimension records

The scatter and gather dimension records of the two programs have the same data fields over the same shapes;
the remaining field is a proof. -/

theorem scatterTril_eq :
    Cert.KernelIdeal.scatter_S4096x64x64_S2080x2_S4096x2080_0_12_12_1
      = Cert.ReferenceIdeal.scatter_S4096x64x64_S2080x2_S4096x2080_0_12_12_1 := rfl

theorem scatterDiag_eq :
    Cert.KernelIdeal.scatter_S4096x64x64_S64x2_S4096x64_0_12_12_1
      = Cert.ReferenceIdeal.scatter_S4096x64x64_S64x2_S4096x64_0_12_12_1 := rfl

theorem gatherDiag_eq :
    Cert.KernelIdeal.gather_S4096x2080_S64x1_S4096x64_0_1_n_n_1_1_40961
      = Cert.ReferenceIdeal.gather_S4096x2080_S64x1_S4096x64_0_1_n_n_1_1_40961 := rfl

/-! ## The pieces of the scale matrix -/

/-- The (row, column) pairs of the lower triangle are the same array in both programs. -/
theorem trilPairs_eq : Cert.KernelIdeal.Hand.trilPairs = Cert.ReferenceIdeal.Hand.trilPairs := by
  unfold Cert.KernelIdeal.Hand.trilPairs Cert.ReferenceIdeal.Hand.trilPairs
  rw [lit0_eq, lit1_eq]

/-- The positions of the diagonal entries are the same array in both programs. -/
theorem diagPos_eq : Cert.KernelIdeal.Hand.diagPos = Cert.ReferenceIdeal.Hand.diagPos := by
  unfold Cert.KernelIdeal.Hand.diagPos Cert.ReferenceIdeal.Hand.diagPos
  rw [lit2_eq]

/-- The (i, i) pairs of the diagonal are the same array in both programs. -/
theorem diagPairs_eq : Cert.KernelIdeal.Hand.diagPairs = Cert.ReferenceIdeal.Hand.diagPairs := by
  unfold Cert.KernelIdeal.Hand.diagPairs Cert.ReferenceIdeal.Hand.diagPairs
  rw [lit3_eq]

/-- softplus is the same term in both programs: the same operations over the same shapes and constants. -/
theorem softplus_eq (a : FVec F Cert.KernelIdeal.S4096x64 .f32) :
    Cert.KernelIdeal.Hand.softplus (F := F) a = Cert.ReferenceIdeal.Hand.softplus (F := F) a := by
  unfold Cert.KernelIdeal.Hand.softplus Cert.ReferenceIdeal.Hand.softplus
  with_reducible rfl

/-- The kernel program's and the reference's scale matrices are one function of the sigma head's output. -/
theorem scaleOf_eq (csig : FVec F Cert.KernelIdeal.S4096x2080 .f32) :
    Cert.KernelIdeal.Hand.scaleOf (F := F) csig = Cert.ReferenceIdeal.Hand.scaleOf (F := F) csig := by
  unfold Cert.KernelIdeal.Hand.scaleOf Cert.ReferenceIdeal.Hand.scaleOf
  rw [scatterTril_eq, scatterDiag_eq, gatherDiag_eq, trilPairs_eq, diagPairs_eq, diagPos_eq, softplus_eq]

end Cert.Chain

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.RVal.lean ====
/-
  The reference's result term, read index by index: the sample of the two linear heads.
-/
import proofs.«121918_j46170898432201_1_alg».proof.Proof.RChain
import proofs.«121918_j46170898432201_1_alg».proof.Proof.Spec
import proofs.«121918_j46170898432201_1_alg».proof.Proof.LibDense
import proofs.«121918_j46170898432201_1_alg».proof.Proof.LibDot
import Idealize.ShloMosaic.Lib.Pipeline.Value
import Idealize.ShloMosaic.Lib.ValueLayout
import Idealize.ShloMosaic.Lib.ValueIdx
import Idealize.ShloMosaic.Lib.IdealHost
import Idealize.ShloMosaic.PureOps.Ideal.Laws

noncomputable section

open Idealize.ShloMosaic Idealize.ShloMosaic.ValueIdx

namespace Cert.ReferenceIdeal.Hand

open Cert.ReferenceIdeal Cert.ReferenceIdeal.Gen

/-! ## Layout operations at an index -/

/-- A bias vector made a one-row matrix and then broadcast down the rows reads, at (p, q), entry q of the vector. -/
private theorem bias_apply {α : Type} {m n : ℕ} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α) (p : Fin m) (q : Fin n) :
    broadcastInDim ⟨2, ![m, n]⟩ ![0, 1] h2 (broadcastInDim ⟨2, ![1, n]⟩ ![1] h1 v) (ix2 p q) = v (ix1 q) := by
  have e2 : broadcastInDim ⟨2, ![m, n]⟩ ![0, 1] h2 (broadcastInDim ⟨2, ![1, n]⟩ ![1] h1 v) (ix2 p q)
      = broadcastInDim ⟨2, ![1, n]⟩ ![1] h1 v (ix2 (0 : Fin 1) q) := by
    refine broadcastInDim_apply ![0, 1] h2 _ (ix2 p q) (ix2 (0 : Fin 1) q) ?_
    intro a
    match a with
    | ⟨0, _⟩ =>
      show (0 : ℕ) = if (1 : ℕ) = 1 then 0 else _
      simp
    | ⟨1, _⟩ =>
      show q.val = if n = 1 then 0 else q.val
      split_ifs with hn
      · have := q.isLt; omega
      · rfl
  have e1 : broadcastInDim ⟨2, ![1, n]⟩ ![1] h1 v (ix2 (0 : Fin 1) q) = v (ix1 q) := by
    refine broadcastInDim_apply ![1] h1 v (ix2 (0 : Fin 1) q) (ix1 q) ?_
    intro a
    match a with
    | ⟨0, _⟩ =>
      show q.val = if n = 1 then 0 else q.val
      split_ifs with hn
      · have := q.isLt; omega
      · rfl
  exact e2.trans e1

/-- A matrix given a trailing unit axis and then broadcast along it reads, at (b, i, t), the matrix at (b, i). -/
private theorem column_apply {α : Type} {B C M : ℕ} (h1 : (⟨2, ![B, C]⟩ : Shape).BroadcastsInDim ⟨3, ![B, C, 1]⟩ ![0, 1])
    (h2 : (⟨3, ![B, C, 1]⟩ : Shape).BroadcastsInDim ⟨3, ![B, C, M]⟩ ![0, 1, 2]) (c : (⟨2, ![B, C]⟩ : Shape).Idx → α)
    (b : Fin B) (i : Fin C) (t : Fin M) :
    broadcastInDim ⟨3, ![B, C, M]⟩ ![0, 1, 2] h2 (broadcastInDim ⟨3, ![B, C, 1]⟩ ![0, 1] h1 c) (ix3 b i t) = c (ix2 b i) := by
  have e2 : broadcastInDim ⟨3, ![B, C, M]⟩ ![0, 1, 2] h2 (broadcastInDim ⟨3, ![B, C, 1]⟩ ![0, 1] h1 c) (ix3 b i t)
      = broadcastInDim ⟨3, ![B, C, 1]⟩ ![0, 1] h1 c (ix3 b i (0 : Fin 1)) := by
    refine broadcastInDim_apply ![0, 1, 2] h2 _ (ix3 b i t) (ix3 b i (0 : Fin 1)) ?_
    intro a
    match a with
    | ⟨0, _⟩ =>
      show b.val = if B = 1 then 0 else b.val
      split_ifs with hn
      · have := b.isLt; omega
      · rfl
    | ⟨1, _⟩ =>
      show i.val = if C = 1 then 0 else i.val
      split_ifs with hn
      · have := i.isLt; omega
      · rfl
    | ⟨2, _⟩ =>
      show (0 : ℕ) = if (1 : ℕ) = 1 then 0 else _
      simp
  have e1 : broadcastInDim ⟨3, ![B, C, 1]⟩ ![0, 1] h1 c (ix3 b i (0 : Fin 1)) = c (ix2 b i) := by
    refine broadcastInDim_apply ![0, 1] h1 c (ix3 b i (0 : Fin 1)) (ix2 b i) ?_
    intro a
    match a with
    | ⟨0, _⟩ =>
      show b.val = if B = 1 then 0 else b.val
      split_ifs with hn
      · have := b.isLt; omega
      · rfl
    | ⟨1, _⟩ =>
      show i.val = if C = 1 then 0 else i.val
      split_ifs with hn
      · have := i.isLt; omega
      · rfl
  exact e2.trans e1

/-- The host's exponential and negation are lane by lane. -/
private theorem hostExp_apply {s : Shape} {φ : FTy} (a : FVec Ideal s φ) (i : s.Idx) : Host.exp a i = Ideal.exp (a i) := rfl

private theorem hostNegf_apply {s : Shape} {φ : FTy} (a : FVec Ideal s φ) (i : s.Idx) : Host.negf a i = -(a i) := rfl

/-! ## A linear head on the host -/

/-- The host's dot of x against the transposed weights plus the bias broadcast down the rows is, at (p, q), the inner
    product of row p of x with row q of the weights, plus entry q of the bias. -/
private theorem head_apply {B K N : ℕ} (d : DotDims ⟨2, ![B, K]⟩ ⟨2, ![K, N]⟩ ⟨2, ![B, N]⟩)
    (hlc : d.lhsContracting = [1]) (hrc : d.rhsContracting = [0]) (hln : d.lhsNonContracting = [0])
    (hrn : d.rhsNonContracting = [1]) (hlb : d.lhsBatch = []) (hrb : d.rhsBatch = [])
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![B, N]⟩ ![0, 1])
    (x : FVec Ideal ⟨2, ![B, K]⟩ .f32) (w : FVec Ideal ⟨2, ![N, K]⟩ .f32) (v : FVec Ideal ⟨1, ![N]⟩ .f32) (p : Fin B) (q : Fin N) :
    addf (Host.dotGeneral d none x (transpose ⟨2, ![K, N]⟩ [1, 0] w ht))
        (broadcastInDim ⟨2, ![B, N]⟩ ![0, 1] h2 (broadcastInDim ⟨2, ![1, N]⟩ ![1] h1 v)) (ix2 p q)
      = Cert.Spec.linAt x w v p q := by
  rw [addf_apply, bias_apply]
  show FloatOps.dotGeneral d none .single x (transpose ⟨2, ![K, N]⟩ [1, 0] w ht) (ix2 p q) + v (ix1 q) = _
  rw [Cert.LibDense.dotGeneral_apply d none .single hlc hrc hln hrn hlb hrb]
  unfold Cert.Spec.linAt
  congr 1
  refine Finset.sum_congr rfl fun k _ => ?_
  rw [transpose_ix2_apply]

variable (x : FVec Ideal S4096x512 .f32) (eps : FVec Ideal S4096x64x100 .f32) (wmu : FVec Ideal S64x512 .f32) (bmu : FVec Ideal S64 .f32)
  (wsig : FVec Ideal S2080x512 .f32) (bsig : FVec Ideal S2080 .f32)

/-- The host's mu head is the linear head: the dot against the transposed weights sums x (p, k) · w (q, k) over k. -/
theorem headMu_eq : headMu (F := Ideal) x wmu bmu = Cert.Spec.lin x wmu bmu := by
  funext j
  obtain ⟨p, q, rfl⟩ : ∃ (p : Fin 4096) (q : Fin 64), j = ix2 p q := ⟨j 0, j 1, eq_ix2 j⟩
  unfold headMu
  rw [Cert.Spec.lin_apply]
  exact head_apply dot_S4096x512_S512x64_S4096x64_1_0_0_1_n_n rfl rfl rfl rfl rfl rfl _ _ _ x wmu bmu p q

/-- The same for the sigma head. -/
theorem headSigma_eq : headSigma (F := Ideal) x wsig bsig = Cert.Spec.lin x wsig bsig := by
  funext j
  obtain ⟨p, q, rfl⟩ : ∃ (p : Fin 4096) (q : Fin 2080), j = ix2 p q := ⟨j 0, j 1, eq_ix2 j⟩
  unfold headSigma
  rw [Cert.Spec.lin_apply]
  exact head_apply dot_S4096x512_S512x2080_S4096x2080_1_0_0_1_n_n rfl rfl rfl rfl rfl rfl _ _ _ x wsig bsig p q

/-- The reference's result is the sample: 1 / (1 + exp (−z)) is the logistic function of z on the extended reals. -/
theorem refOut_eq : refOut (F := Ideal) x eps wmu bmu wsig bsig
    = Cert.Spec.samp (Cert.Spec.lin x wmu bmu) (scaleOf (F := Ideal) (Cert.Spec.lin x wsig bsig)) eps := by
  unfold refOut
  rw [headMu_eq, headSigma_eq]
  funext j
  obtain ⟨b, i, t, rfl⟩ : ∃ (b : Fin 4096) (i : Fin 64) (t : Fin 100), j = ix3 b i t := ⟨j 0, j 1, j 2, eq_ix3 j⟩
  rw [Cert.Spec.samp_apply, hostDivf_apply, addf_apply, hostExp_apply, hostNegf_apply, addf_apply,
    broadcastInDim_scalar_apply, constant_apply, Ideal.ofBits_one_f32, column_apply]
  show Ideal.div 1 (1 + Ideal.exp (-(Cert.Spec.lin x wmu bmu (ix2 b i)
      + FloatOps.dotGeneral dot_S4096x64x64_S4096x64x100_S4096x64x100_2_1_1_2_0_0 none .single
          (scaleOf (F := Ideal) (Cert.Spec.lin x wsig bsig)) eps (ix3 b i t)))) = _
  rw [Cert.LibDot.dotGeneral_batched_apply dot_S4096x64x64_S4096x64x100_S4096x64x100_2_1_1_2_0_0 none .single rfl rfl rfl rfl rfl rfl]
  rfl

end Cert.ReferenceIdeal.Hand

end
-- ==== Proof.RRun.lean ====
/-
  The reference program's run, read back: every execution ends with the result at the program's composed term of the arguments.
-/
import proofs.«121918_j46170898432201_1_alg».proof.Proof.Gen.ReferenceIdeal
import proofs.«121918_j46170898432201_1_alg».proof.Proof.RChain
import Idealize.ShloMosaic.Lib.StableHlo.Run

noncomputable section

open Idealize.ShloMosaic Idealize.ShloMosaic.TcCoe Idealize.SL.Sem Idealize.ShloMosaic.StableHlo

namespace Cert.ReferenceIdeal.Hand

open Cert.ReferenceIdeal Cert.ReferenceIdeal.Gen

variable {F : FTy → Type} [FloatOps F]

/-- @main as one straight line: its 59 + 7 own operations in program order, with the 14 operations of the call of
    @softplus in the place of the call, over the argument %25 and the buffers of the call's record. -/
abbrev ops : List (HloOp τ sig (Elt F)) :=
  [ StableHlo.nullary main_c (fun i => lit0 (S2080.rowMajor i)),
    StableHlo.nullary main_c_0 (constantI S2080 1 0#1),
    StableHlo.nullary main_c_1 (fun i => lit1 (S2080.rowMajor i)),
    StableHlo.nullary main_c_2 (constantI S2080 1 0#1),
    StableHlo.nullary main_c_3 (fun i => lit2 (S64.rowMajor i)),
    StableHlo.nullary main_c_4 (constantI S64 1 0#1),
    StableHlo.nullary main_c_5 (fun i => lit3 (S64.rowMajor i)),
    StableHlo.nullary main_c_6 (constantI S64 1 0#1),
    StableHlo.nullary main_c_7 (constantI S64 1 0#1),
    StableHlo.unary main_arg2 main_v0 ((transpose S512x64 [1, 0] · transposes_S64x512_S512x64_1_0) : (⟨S64x512, .f32⟩ : BufTy).Contents (Elt F) → (⟨S512x64, .f32⟩ : BufTy).Contents (Elt F)),
    StableHlo.binary main_arg0 main_v0 main_v1 ((fun l r => Host.dotGeneral dot_S4096x512_S512x64_S4096x64_1_0_0_1_n_n none l r) : (⟨S4096x512, .f32⟩ : BufTy).Contents (Elt F) → (⟨S512x64, .f32⟩ : BufTy).Contents (Elt F) → (⟨S4096x64, .f32⟩ : BufTy).Contents (Elt F)),
    StableHlo.unary main_arg3 main_v2 (broadcastInDim S1x64 ![1] bcast_S64_S1x64_1 : (⟨S64, .f32⟩ : BufTy).Contents (Elt F) → (⟨S1x64, .f32⟩ : BufTy).Contents (Elt F)),
    StableHlo.unary main_v2 main_v3 (broadcastInDim S4096x64 ![0, 1] bcast_S1x64_S4096x64_0_1 : (⟨S1x64, .f32⟩ : BufTy).Contents (Elt F) → (⟨S4096x64, .f32⟩ : BufTy).Contents (Elt F)),
    StableHlo.binary main_v1 main_v3 main_v4 (addf : (⟨S4096x64, .f32⟩ : BufTy).Contents (Elt F) → (⟨S4096x64, .f32⟩ : BufTy).Contents (Elt F) → (⟨S4096x64, .f32⟩ : BufTy).Contents (Elt F)),
    StableHlo.unary main_arg4 main_v5 ((transpose S512x2080 [1, 0] · transposes_S2080x512_S512x2080_1_0) : (⟨S2080x512, .f32⟩ : BufTy).Contents (Elt F) → (⟨S512x2080, .f32⟩ : BufTy).Contents (Elt F)),
    StableHlo.binary main_arg0 main_v5 main_v6 ((fun l r => Host.dotGeneral dot_S4096x512_S512x2080_S4096x2080_1_0_0_1_n_n none l r) : (⟨S4096x512, .f32⟩ : BufTy).Contents (Elt F) → (⟨S512x2080, .f32⟩ : BufTy).Contents (Elt F) → (⟨S4096x2080, .f32⟩ : BufTy).Contents (Elt F)),
    StableHlo.unary main_arg5 main_v7 (broadcastInDim S1x2080 ![1] bcast_S2080_S1x2080_1 : (⟨S2080, .f32⟩ : BufTy).Contents (Elt F) → (⟨S1x2080, .f32⟩ : BufTy).Contents (Elt F)),
    StableHlo.unary main_v7 main_v8 (broadcastInDim S4096x2080 ![0, 1] bcast_S1x2080_S4096x2080_0_1 : (⟨S1x2080, .f32⟩ : BufTy).Contents (Elt F) → (⟨S4096x2080, .f32⟩ : BufTy).Contents (Elt F)),
    StableHlo.binary main_v6 main_v8 main_v9 (addf : (⟨S4096x2080, .f32⟩ : BufTy).Contents (Elt F) → (⟨S4096x2080, .f32⟩ : BufTy).Contents (Elt F) → (⟨S4096x2080, .f32⟩ : BufTy).Contents (Elt F)),
    StableHlo.nullary main_cst (constant S_ .f32 0x00000000#32),
    StableHlo.unary main_cst main_v10 (broadcastInDim S4096x64x64 ![] bcast_S_S4096x64x64 : (⟨S_, .f32⟩ : BufTy).Contents (Elt F) → (⟨S4096x64x64, .f32⟩ : BufTy).Contents (Elt F)),
    StableHlo.nullary main_c_8 (constantI S_ 32 64#32),
    StableHlo.unary main_c_8 main_v11 (broadcastInDim S2080 ![] bcast_S_S2080 : (⟨S_, .i32⟩ : BufTy).Contents (Elt F) → (⟨S2080, .i32⟩ : BufTy).Contents (Elt F)),
    StableHlo.binary main_c main_v11 main_v12 (addi : (⟨S2080, .i32⟩ : BufTy).Contents (Elt F) → (⟨S2080, .i32⟩ : BufTy).Contents (Elt F) → (⟨S2080, .i32⟩ : BufTy).Contents (Elt F)),
    StableHlo.ternary main_c_0 main_v12 main_c main_v13 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.nullary main_c_9 (constantI S_ 32 64#32),
    StableHlo.unary main_c_9 main_v14 (broadcastInDim S2080 ![] bcast_S_S2080 : (⟨S_, .i32⟩ : BufTy).Contents (Elt F) → (⟨S2080, .i32⟩ : BufTy).Contents (Elt F)),
    StableHlo.binary main_c_1 main_v14 main_v15 (addi : (⟨S2080, .i32⟩ : BufTy).Contents (Elt F) → (⟨S2080, .i32⟩ : BufTy).Contents (Elt F) → (⟨S2080, .i32⟩ : BufTy).Contents (Elt F)),
    StableHlo.ternary main_c_2 main_v15 main_c_1 main_v16 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v13 main_v17 (broadcastInDim S2080x1 ![0] bcast_S2080_S2080x1_0 : (⟨S2080, .i32⟩ : BufTy).Contents (Elt F) → (⟨S2080x1, .i32⟩ : BufTy).Contents (Elt F)),
    StableHlo.unary main_v16 main_v18 (broadcastInDim S2080x1 ![0] bcast_S2080_S2080x1_0 : (⟨S2080, .i32⟩ : BufTy).Contents (Elt F) → (⟨S2080x1, .i32⟩ : BufTy).Contents (Elt F)),
    StableHlo.binary main_v17 main_v18 main_v19 ((fun a b => concatenate S2080x2 1 [⟨S2080x1, a⟩, ⟨S2080x1, b⟩] concatenates_S2080x1_S2080x1_S2080x2_d1) : (⟨S2080x1, .i32⟩ : BufTy).Contents (Elt F) → (⟨S2080x1, .i32⟩ : BufTy).Contents (Elt F) → (⟨S2080x2, .i32⟩ : BufTy).Contents (Elt F)),
    StableHlo.ternary main_v10 main_v19 main_v9 main_v20 ((fun x i u => Host.scatter scatter_S4096x64x64_S2080x2_S4096x2080_0_12_12_1 (fun _ b => b) x i u) : (⟨S4096x64x64, .f32⟩ : BufTy).Contents (Elt F) → (⟨S2080x2, .i32⟩ : BufTy).Contents (Elt F) → (⟨S4096x2080, .f32⟩ : BufTy).Contents (Elt F) → (⟨S4096x64x64, .f32⟩ : BufTy).Contents (Elt F)),
    StableHlo.nullary main_c_10 (constantI S_ 32 2080#32),
    StableHlo.unary main_c_10 main_v21 (broadcastInDim S64 ![] bcast_S_S64 : (⟨S_, .i32⟩ : BufTy).Contents (Elt F) → (⟨S64, .i32⟩ : BufTy).Contents (Elt F)),
    StableHlo.binary main_c_3 main_v21 main_v22 (addi : (⟨S64, .i32⟩ : BufTy).Contents (Elt F) → (⟨S64, .i32⟩ : BufTy).Contents (Elt F) → (⟨S64, .i32⟩ : BufTy).Contents (Elt F)),
    StableHlo.ternary main_c_4 main_v22 main_c_3 main_v23 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v23 main_v24 (broadcastInDim S64x1 ![0] bcast_S64_S64x1_0 : (⟨S64, .i32⟩ : BufTy).Contents (Elt F) → (⟨S64x1, .i32⟩ : BufTy).Contents (Elt F)),
    StableHlo.binary main_v9 main_v24 main_v25 ((fun x i => Host.gather gather_S4096x2080_S64x1_S4096x64_0_1_n_n_1_1_40961 x i) : (⟨S4096x2080, .f32⟩ : BufTy).Contents (Elt F) → (⟨S64x1, .i32⟩ : BufTy).Contents (Elt F) → (⟨S4096x64, .f32⟩ : BufTy).Contents (Elt F)),
    StableHlo.TRef.nullary main_call0.cst (constant S_ .f32 0x00000000#32),
    StableHlo.TRef.unary main_call0.cst main_call0.v0 (broadcastInDim S4096x64 ![] bcast_S_S4096x64),
    StableHlo.TRef.binary (.of main_v25 : StableHlo.TRef sig ⟨S4096x64, .f32⟩) main_call0.v0 main_call0.v1 maximumf,
    StableHlo.TRef.unary main_call0.cst main_call0.v2 (broadcastInDim S4096x64 ![] bcast_S_S4096x64),
    StableHlo.TRef.binary (.of main_v25 : StableHlo.TRef sig ⟨S4096x64, .f32⟩) main_call0.v2 main_call0.v3 subf,
    StableHlo.TRef.binary main_call0.v3 main_call0.v3 main_call0.v4 (cmpf .une),
    StableHlo.TRef.unary main_call0.cst main_call0.v5 (broadcastInDim S4096x64 ![] bcast_S_S4096x64),
    StableHlo.TRef.binary (.of main_v25 : StableHlo.TRef sig ⟨S4096x64, .f32⟩) main_call0.v5 main_call0.v6 addf,
    StableHlo.TRef.unary main_call0.v3 main_call0.v7 Host.absf,
    StableHlo.TRef.unary main_call0.v7 main_call0.v8 Host.negf,
    StableHlo.TRef.unary main_call0.v8 main_call0.v9 Host.exp,
    StableHlo.TRef.unary main_call0.v9 main_call0.v10 Host.log1p,
    StableHlo.TRef.binary main_call0.v1 main_call0.v10 main_call0.v11 addf,
    StableHlo.TRef.ternary main_call0.v4 main_call0.v6 main_call0.v11 main_call0.v12 select,
    StableHlo.nullary main_cst_11 (constant S_ .f32 0x358637BD#32),
    StableHlo.unary main_cst_11 main_v27 (broadcastInDim S4096x64 ![] bcast_S_S4096x64 : (⟨S_, .f32⟩ : BufTy).Contents (Elt F) → (⟨S4096x64, .f32⟩ : BufTy).Contents (Elt F)),
    StableHlo.binary main_v26 main_v27 main_v28 (addf : (⟨S4096x64, .f32⟩ : BufTy).Contents (Elt F) → (⟨S4096x64, .f32⟩ : BufTy).Contents (Elt F) → (⟨S4096x64, .f32⟩ : BufTy).Contents (Elt F)),
    StableHlo.nullary main_c_12 (constantI S_ 32 64#32),
    StableHlo.unary main_c_12 main_v29 (broadcastInDim S64 ![] bcast_S_S64 : (⟨S_, .i32⟩ : BufTy).Contents (Elt F) → (⟨S64, .i32⟩ : BufTy).Contents (Elt F)),
    StableHlo.binary main_c_5 main_v29 main_v30 (addi : (⟨S64, .i32⟩ : BufTy).Contents (Elt F) → (⟨S64, .i32⟩ : BufTy).Contents (Elt F) → (⟨S64, .i32⟩ : BufTy).Contents (Elt F)),
    StableHlo.ternary main_c_6 main_v30 main_c_5 main_v31 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_c_13 (constantI S_ 32 64#32),
    StableHlo.unary main_c_13 main_v32 (broadcastInDim S64 ![] bcast_S_S64 : (⟨S_, .i32⟩ : BufTy).Contents (Elt F) → (⟨S64, .i32⟩ : BufTy).Contents (Elt F)),
    StableHlo.binary main_c_5 main_v32 main_v33 (addi : (⟨S64, .i32⟩ : BufTy).Contents (Elt F) → (⟨S64, .i32⟩ : BufTy).Contents (Elt F) → (⟨S64, .i32⟩ : BufTy).Contents (Elt F)),
    StableHlo.ternary main_c_7 main_v33 main_c_5 main_v34 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v31 main_v35 (broadcastInDim S64x1 ![0] bcast_S64_S64x1_0 : (⟨S64, .i32⟩ : BufTy).Contents (Elt F) → (⟨S64x1, .i32⟩ : BufTy).Contents (Elt F)),
    StableHlo.unary main_v34 main_v36 (broadcastInDim S64x1 ![0] bcast_S64_S64x1_0 : (⟨S64, .i32⟩ : BufTy).Contents (Elt F) → (⟨S64x1, .i32⟩ : BufTy).Contents (Elt F)),
    StableHlo.binary main_v35 main_v36 main_v37 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    StableHlo.ternary main_v20 main_v37 main_v28 main_v38 ((fun x i u => Host.scatter scatter_S4096x64x64_S64x2_S4096x64_0_12_12_1 (fun _ b => b) x i u) : (⟨S4096x64x64, .f32⟩ : BufTy).Contents (Elt F) → (⟨S64x2, .i32⟩ : BufTy).Contents (Elt F) → (⟨S4096x64, .f32⟩ : BufTy).Contents (Elt F) → (⟨S4096x64x64, .f32⟩ : BufTy).Contents (Elt F)),
    StableHlo.unary main_v4 main_v39 (broadcastInDim S4096x64x1 ![0, 1] bcast_S4096x64_S4096x64x1_0_1 : (⟨S4096x64, .f32⟩ : BufTy).Contents (Elt F) → (⟨S4096x64x1, .f32⟩ : BufTy).Contents (Elt F)),
    StableHlo.binary main_v38 main_arg1 main_v40 ((fun l r => Host.dotGeneral dot_S4096x64x64_S4096x64x100_S4096x64x100_2_1_1_2_0_0 none l r) : (⟨S4096x64x64, .f32⟩ : BufTy).Contents (Elt F) → (⟨S4096x64x100, .f32⟩ : BufTy).Contents (Elt F) → (⟨S4096x64x100, .f32⟩ : BufTy).Contents (Elt F)),
    StableHlo.unary main_v39 main_v41 (broadcastInDim S4096x64x100 ![0, 1, 2] bcast_S4096x64x1_S4096x64x100_0_1_2 : (⟨S4096x64x1, .f32⟩ : BufTy).Contents (Elt F) → (⟨S4096x64x100, .f32⟩ : BufTy).Contents (Elt F)),
    StableHlo.binary main_v41 main_v40 main_v42 (addf : (⟨S4096x64x100, .f32⟩ : BufTy).Contents (Elt F) → (⟨S4096x64x100, .f32⟩ : BufTy).Contents (Elt F) → (⟨S4096x64x100, .f32⟩ : BufTy).Contents (Elt F)),
    StableHlo.unary main_v42 main_v43 (Host.negf : (⟨S4096x64x100, .f32⟩ : BufTy).Contents (Elt F) → (⟨S4096x64x100, .f32⟩ : BufTy).Contents (Elt F)),
    StableHlo.unary main_v43 main_v44 (Host.exp : (⟨S4096x64x100, .f32⟩ : BufTy).Contents (Elt F) → (⟨S4096x64x100, .f32⟩ : BufTy).Contents (Elt F)),
    StableHlo.nullary main_cst_14 (constant S_ .f32 0x3F800000#32),
    StableHlo.unary main_cst_14 main_v45 (broadcastInDim S4096x64x100 ![] bcast_S_S4096x64x100 : (⟨S_, .f32⟩ : BufTy).Contents (Elt F) → (⟨S4096x64x100, .f32⟩ : BufTy).Contents (Elt F)),
    StableHlo.binary main_v45 main_v44 main_v46 (addf : (⟨S4096x64x100, .f32⟩ : BufTy).Contents (Elt F) → (⟨S4096x64x100, .f32⟩ : BufTy).Contents (Elt F) → (⟨S4096x64x100, .f32⟩ : BufTy).Contents (Elt F)),
    StableHlo.nullary main_cst_15 (constant S_ .f32 0x3F800000#32),
    StableHlo.unary main_cst_15 main_v47 (broadcastInDim S4096x64x100 ![] bcast_S_S4096x64x100 : (⟨S_, .f32⟩ : BufTy).Contents (Elt F) → (⟨S4096x64x100, .f32⟩ : BufTy).Contents (Elt F)),
    StableHlo.binary main_v47 main_v46 main_v48 (Host.divf : (⟨S4096x64x100, .f32⟩ : BufTy).Contents (Elt F) → (⟨S4096x64x100, .f32⟩ : BufTy).Contents (Elt F) → (⟨S4096x64x100, .f32⟩ : BufTy).Contents (Elt F)) ]

set_option maxRecDepth 4096 in
/-- @main is that line: a sequence of operation steps re-associates by computation, the callee's body (which ends in
    a return of nothing) and the two windows of @main included. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub ..,
    nullary_bufs_sub .., nullary_bufs_sub .., nullary_bufs_sub .., unary_bufs_sub .., binary_bufs_sub .., unary_bufs_sub ..,
    unary_bufs_sub .., binary_bufs_sub .., unary_bufs_sub .., binary_bufs_sub .., unary_bufs_sub .., unary_bufs_sub ..,
    binary_bufs_sub .., nullary_bufs_sub .., unary_bufs_sub .., nullary_bufs_sub .., unary_bufs_sub .., binary_bufs_sub ..,
    ternary_bufs_sub .., nullary_bufs_sub .., unary_bufs_sub .., binary_bufs_sub .., ternary_bufs_sub .., unary_bufs_sub ..,
    unary_bufs_sub .., binary_bufs_sub .., ternary_bufs_sub .., nullary_bufs_sub .., unary_bufs_sub .., binary_bufs_sub ..,
    ternary_bufs_sub .., unary_bufs_sub .., binary_bufs_sub .., nullary_bufs_sub .., unary_bufs_sub .., binary_bufs_sub ..,
    unary_bufs_sub .., binary_bufs_sub .., binary_bufs_sub .., unary_bufs_sub .., binary_bufs_sub .., unary_bufs_sub ..,
    unary_bufs_sub .., unary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., ternary_bufs_sub .., unary_bufs_sub .., unary_bufs_sub ..,
    binary_bufs_sub .., ternary_bufs_sub .., unary_bufs_sub .., binary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub ..⟩

/-- From any memory with zero counters every weakly fair execution of @main terminates, with every TensorCore buffer at
    the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.scatter Host.gather in
set_option maxHeartbeats 4000000 in
set_option maxRecDepth 8192 in
/-- The fold read at the result buffer is `refOut` of the contents of the six arguments. Each operation's result at the
    buffer it writes is its function of its operands' contents, and at any other buffer what was there; the index
    tables under the two concatenations are reached through the pairs of a list, where the fold is read by
    computation, the scatters and the gather staying closed meanwhile (the equation never looks inside them). -/
theorem out_eq (V : Valuation τ sig (Elt F)) :
    after ops V (main_v48 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  unfold refOut headMu headSigma scaleOf trilPairs diagPos diagPairs softplus
  rfl

/-! No operation of the line writes an argument's buffer. -/

set_option maxHeartbeats 4000000 in
set_option maxRecDepth 8192 in
theorem arg0_eq (V : Valuation τ sig (Elt F)) :
    after ops V (main_arg0 : DevRef τ sig) = V (main_arg0 : DevRef τ sig) := by
  after_results_simp

set_option maxHeartbeats 4000000 in
set_option maxRecDepth 8192 in
theorem arg1_eq (V : Valuation τ sig (Elt F)) :
    after ops V (main_arg1 : DevRef τ sig) = V (main_arg1 : DevRef τ sig) := by
  after_results_simp

set_option maxHeartbeats 4000000 in
set_option maxRecDepth 8192 in
theorem arg2_eq (V : Valuation τ sig (Elt F)) :
    after ops V (main_arg2 : DevRef τ sig) = V (main_arg2 : DevRef τ sig) := by
  after_results_simp

set_option maxHeartbeats 4000000 in
set_option maxRecDepth 8192 in
theorem arg3_eq (V : Valuation τ sig (Elt F)) :
    after ops V (main_arg3 : DevRef τ sig) = V (main_arg3 : DevRef τ sig) := by
  after_results_simp

set_option maxHeartbeats 4000000 in
set_option maxRecDepth 8192 in
theorem arg4_eq (V : Valuation τ sig (Elt F)) :
    after ops V (main_arg4 : DevRef τ sig) = V (main_arg4 : DevRef τ sig) := by
  after_results_simp

set_option maxHeartbeats 4000000 in
set_option maxRecDepth 8192 in
theorem arg5_eq (V : Valuation τ sig (Elt F)) :
    after ops V (main_arg5 : DevRef τ sig) = V (main_arg5 : DevRef τ sig) := by
  after_results_simp

/-- On every device, from any memory with zero counters: every weakly fair execution of @main terminates with the result
    at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v48).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_main m ρ)

end Cert.ReferenceIdeal.Hand

end
-- ==== Proof.Bridge.lean ====
/-
  The kernel program's result as a function of the arguments, and the three claims about it.
-/
import proofs.«121918_j46170898432201_1_alg».proof.Defs
import proofs.«121918_j46170898432201_1_alg».proof.Proof.Gen.Kernel.Frame
import proofs.«121918_j46170898432201_1_alg».proof.Proof.Gen.Pre_finite_inputs
import proofs.«121918_j46170898432201_1_alg».proof.Proof.KRun
import proofs.«121918_j46170898432201_1_alg».proof.Proof.KVal0
import proofs.«121918_j46170898432201_1_alg».proof.Proof.KVal1
import proofs.«121918_j46170898432201_1_alg».proof.Proof.KHost
import proofs.«121918_j46170898432201_1_alg».proof.Proof.KSplit
import proofs.«121918_j46170898432201_1_alg».proof.Proof.Chain
import proofs.«121918_j46170898432201_1_alg».proof.Proof.RVal
import proofs.«121918_j46170898432201_1_alg».proof.Proof.RRun

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg)

/-- Between the regions: the first region's result array is the linear head over the stacked weights and biases. -/
theorem stacked_head (c : Dev nD) :
    W2 m ρ c (Proc.devRef .tc main_v3)
      = Cert.Spec.linRow (m ((c : Thread nD τ).loc main_arg0))
          (concatenate S2144x512 0 [⟨S64x512, m ((c : Thread nD τ).loc main_arg2)⟩, ⟨S2080x512, m ((c : Thread nD τ).loc main_arg4)⟩] concatenates_S64x512_S2080x512_S2144x512_d0)
          (shapeCast S1x2144 (concatenate S2144 0 [⟨S64, m ((c : Thread nD τ).loc main_arg3)⟩, ⟨S2080, m ((c : Thread nD τ).loc main_arg5)⟩] concatenates_S64_S2080_S2144_d0) shapeCasts_S2144_S1x2144) := by
  refine (W2_arr m ρ c 3).trans ((final0 (V1 m ρ) c).trans ?_)
  rw [V1_arg0, V1_v0, V1_v2]

/-- The kernel program's result: the sample of the mu head, the scale matrices of the sigma head, and the noise. -/
theorem result_eq (c : Dev nD) :
    W6 m ρ c (Proc.devRef .tc main_v35)
      = Cert.Spec.samp
          (Cert.Spec.lin (m ((c : Thread nD τ).loc main_arg0)) (m ((c : Thread nD τ).loc main_arg2)) (m ((c : Thread nD τ).loc main_arg3)))
          (scaleOf (F := Ideal) (Cert.Spec.lin (m ((c : Thread nD τ).loc main_arg0)) (m ((c : Thread nD τ).loc main_arg4)) (m ((c : Thread nD τ).loc main_arg5))))
          (m ((c : Thread nD τ).loc main_arg1)) := by
  refine (W6_arr m ρ c 3).trans ((final1 (V5 m ρ) c).trans ?_)
  rw [V5_v4, V5_v34, V5_arg1, stacked_head, split_mu, split_sigma]

end Cert.KernelIdeal.Hand

namespace Cert.Proof.Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Hand.run (F := Ideal) m ρ)

/-- Both programs end at the sample of the two linear heads of the arguments: the kernel program by its two regions and
    the host operations between them, the reference by its composed term; the scale matrices are one function of the
    sigma head in both. -/
theorem algebraic : Cert.algebraic_KernelIdeal_ReferenceIdeal := by
  intro m ρ m' ρ' _ hagree
  refine ⟨fun c => Cert.Spec.samp
      (Cert.Spec.lin (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (Cert.KernelIdeal.Hand.scaleOf (F := Ideal) (Cert.Spec.lin (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))))
      (m ((c.tc : Thread Cert.KernelIdeal.nD Cert.KernelIdeal.τ).loc Cert.KernelIdeal.main_arg1)), ?_, ?_⟩
  · exact (θ_run Cert.KernelIdeal.defs _ _).mono (fun r h c => ⟨(h c).1.trans (Cert.KernelIdeal.Hand.result_eq m ρ c), (h c).2⟩)
      (Cert.KernelIdeal.Hand.run (F := Ideal) m ρ)
  · refine (θ_run Cert.ReferenceIdeal.defs _ _).mono (fun r h c => ⟨(h c).1.trans ?_, (h c).2⟩)
      (Cert.ReferenceIdeal.Hand.run (F := Ideal) m' ρ')
    obtain ⟨e0, e1, e2, e3, e4, e5⟩ := hagree c
    rw [e0, e1, e2, e3, e4, e5, Cert.ReferenceIdeal.Hand.refOut_eq, ← Cert.Chain.scaleOf_eq]

end Cert.Proof.Claims

end
-- ==== Proof.lean ====
/-
  The kernel program computes sigmoid (mu + L · eps) in two regions: a linear head over the stacked weights of the mu and
  sigma heads (rows of the activations against rows of the weights, plus the bias), then, after the host has cut the
  head's columns into the mean (the first 64) and the lower-triangular scale matrices (the other 2080, the diagonal
  replaced by its softplus plus 1e-6), one 64 × 64 by 64 × 100 product per batch entry, the mean added, the logistic
  function applied. The reference computes the two heads separately on the host, builds the scale matrices by the same
  host operations, and spells the logistic function as 1 / (1 + exp (−z)). Over the extended reals the two are the same
  function of the arguments: a change of float format is the identity, a row of the stacked weights is a row of one of
  the two weight matrices, the sums run over the same index set in both programs, and 1 / (1 + exp (−z)) is the
  logistic function by definition. No law that needs finiteness is used.
-/
import proofs.«121918_j46170898432201_1_alg».proof.Defs
import proofs.«121918_j46170898432201_1_alg».proof.Proof.Gen.Kernel
import proofs.«121918_j46170898432201_1_alg».proof.Proof.Gen.KernelIdeal
import proofs.«121918_j46170898432201_1_alg».proof.Proof.Gen.ReferenceIdeal
import proofs.«121918_j46170898432201_1_alg».proof.Proof.Gen.Pre_finite_inputs
import proofs.«121918_j46170898432201_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, trivial, Cert.Proof.Claims.algebraic⟩

end Cert.Proof

end
